-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x5 : Shape := ⟨2, ![100000, 5]⟩
abbrev S2x3200000 : Shape := ⟨2, ![2, 3200000]⟩
abbrev S100000 : Shape := ⟨1, ![100000]⟩
abbrev S5x30 : Shape := ⟨2, ![5, 30]⟩
abbrev S30 : Shape := ⟨1, ![30]⟩
abbrev S30x8 : Shape := ⟨2, ![30, 8]⟩
abbrev S8 : Shape := ⟨1, ![8]⟩
abbrev S_ : Shape := ⟨0, ![]⟩

class Facts : Prop where
  bcast_S_S100000x5 : S_.BroadcastsInDim S100000x5 (![] : Fin 0 → Fin S100000x5.rank)
  reducesTo_S100000x5_S_d0_1 : S100000x5.ReducesTo [0, 1] S_
  h_S_ : 0 < S_.numel
  bcast_S_S5x30 : S_.BroadcastsInDim S5x30 (![] : Fin 0 → Fin S5x30.rank)
  reducesTo_S5x30_S_d0_1 : S5x30.ReducesTo [0, 1] S_
  bcast_S_S30 : S_.BroadcastsInDim S30 (![] : Fin 0 → Fin S30.rank)
  reducesTo_S30_S_d0 : S30.ReducesTo [0] S_
  bcast_S_S30x8 : S_.BroadcastsInDim S30x8 (![] : Fin 0 → Fin S30x8.rank)
  reducesTo_S30x8_S_d0_1 : S30x8.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg6 : FVec F S8 .f32) (main_v13 : IVec S_ 1) (main_v16 : IVec S30x8 1) : IVec S_ 1 :=
  let main_c_5 : IVec S_ 1 := constantI S_ 1 1#1
  let main_v17 : IVec S_ 1 := (fun x v => Host.reduce IntOp.andi x v reducesTo_S30x8_S_d0_1 h_S_) main_v16 main_c_5
  let main_v18 : IVec S_ 1 := andi main_v13 main_v17
  let main_v19 : FVec F S8 .f32 := Host.absf main_arg6
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  main_v23

def fn {F : FTy → Type} [FloatOps F] (main_arg0 : FVec F S100000x5 .f32) (main_arg1 : IVec S2x3200000 32) (main_arg2 : IVec S100000 32) (main_arg3 : FVec F S5x30 .f32) (main_arg4 : FVec F S30 .f32) (main_arg5 : FVec F S30x8 .f32) (main_arg6 : FVec F S8 .f32) : IVec S_ 1 :=
  let main_v0 : FVec F S100000x5 .f32 := Host.absf main_arg0
  let main_cst : FVec F S_ .f32 := constant S_ .f32 0x7F800000#32
  let main_v1 : FVec F S100000x5 .f32 := broadcastInDim S100000x5 ![] bcast_S_S100000x5 main_cst
  let main_v2 : IVec S100000x5 1 := cmpf .olt main_v0 main_v1
  let main_c : IVec S_ 1 := constantI S_ 1 1#1
  let main_v3 : IVec S_ 1 := (fun x v => Host.reduce IntOp.andi x v reducesTo_S100000x5_S_d0_1 h_S_) main_v2 main_c
  let main_v4 : FVec F S5x30 .f32 := Host.absf main_arg3
  let main_cst_0 : FVec F S_ .f32 := constant S_ .f32 0x7F800000#32
  let main_v5 : FVec F S5x30 .f32 := broadcastInDim S5x30 ![] bcast_S_S5x30 main_cst_0
  let main_v6 : IVec S5x30 1 := cmpf .olt main_v4 main_v5
  let main_c_1 : IVec S_ 1 := constantI S_ 1 1#1
  let main_v7 : IVec S_ 1 := (fun x v => Host.reduce IntOp.andi x v reducesTo_S5x30_S_d0_1 h_S_) main_v6 main_c_1
  let main_v8 : IVec S_ 1 := andi main_v3 main_v7
  let main_v9 : FVec F S30 .f32 := Host.absf main_arg4
  let main_cst_2 : FVec F S_ .f32 := constant S_ .f32 0x7F800000#32
  let main_v10 : FVec F S30 .f32 := broadcastInDim S30 ![] bcast_S_S30 main_cst_2
  let main_v11 : IVec S30 1 := cmpf .olt main_v9 main_v10
  let main_c_3 : IVec S_ 1 := constantI S_ 1 1#1
  let main_v12 : IVec S_ 1 := (fun x v => Host.reduce IntOp.andi x v reducesTo_S30_S_d0 h_S_) main_v11 main_c_3
  let main_v13 : IVec S_ 1 := andi main_v8 main_v12
  let main_v14 : FVec F S30x8 .f32 := Host.absf main_arg5
  let main_cst_4 : FVec F S_ .f32 := constant S_ .f32 0x7F800000#32
  let main_v15 : FVec F S30x8 .f32 := broadcastInDim S30x8 ![] bcast_S_S30x8 main_cst_4
  let main_v16 : IVec S30x8 1 := cmpf .olt main_v14 main_v15
  fn_part1 (F := F) main_arg6 main_v13 main_v16
-- ==== Kernel.lean ====
abbrev S100000x5 : Shape := ⟨2, ![100000, 5]⟩
abbrev S2x3200000 : Shape := ⟨2, ![2, 3200000]⟩
abbrev S100000 : Shape := ⟨1, ![100000]⟩
abbrev S5x30 : Shape := ⟨2, ![5, 30]⟩
abbrev S30 : Shape := ⟨1, ![30]⟩
abbrev S30x8 : Shape := ⟨2, ![30, 8]⟩
abbrev S8 : Shape := ⟨1, ![8]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x30 : Shape := ⟨2, ![100000, 30]⟩
abbrev S10000x5 : Shape := ⟨2, ![10000, 5]⟩
abbrev S10000x30 : Shape := ⟨2, ![10000, 30]⟩
abbrev S3300000x30 : Shape := ⟨2, ![3300000, 30]⟩
abbrev S10000x1 : Shape := ⟨2, ![10000, 1]⟩
abbrev S1x30 : Shape := ⟨2, ![1, 30]⟩
abbrev S100000x8 : Shape := ⟨2, ![100000, 8]⟩
abbrev S10000x8 : Shape := ⟨2, ![10000, 8]⟩
abbrev S3300000x8 : Shape := ⟨2, ![3300000, 8]⟩
abbrev S1x8 : Shape := ⟨2, ![1, 8]⟩
abbrev S2048x8 : Shape := ⟨2, ![2048, 8]⟩
abbrev S100000x1 : Shape := ⟨2, ![100000, 1]⟩
abbrev S2048 : Shape := ⟨1, ![2048]⟩
abbrev S2048x1 : Shape := ⟨2, ![2048, 1]⟩

abbrev nBuf : Space → Nat
  | .hbm => 120
  | .vmem => 32
  | .smem => 0
  | _ => 0

abbrev bufTy : (tb : Table) → Fin (tcTables nBuf tb) → BufTy
  | .hbm, ⟨0, _⟩ => ⟨S100000x5, .f32⟩
  | .hbm, ⟨1, _⟩ => ⟨S2x3200000, .i32⟩
  | .hbm, ⟨2, _⟩ => ⟨S100000, .i32⟩
  | .hbm, ⟨3, _⟩ => ⟨S5x30, .f32⟩
  | .hbm, ⟨4, _⟩ => ⟨S30, .f32⟩
  | .hbm, ⟨5, _⟩ => ⟨S30x8, .f32⟩
  | .hbm, ⟨6, _⟩ => ⟨S8, .f32⟩
  | .hbm, ⟨7, _⟩ => ⟨S100000, .i32⟩
  | .hbm, ⟨8, _⟩ => ⟨S1x3200000, .i32⟩
  | .hbm, ⟨9, _⟩ => ⟨S3200000, .i32⟩
  | .hbm, ⟨10, _⟩ => ⟨S3300000, .i32⟩
  | .hbm, ⟨11, _⟩ => ⟨S1x3200000, .i32⟩
  | .hbm, ⟨12, _⟩ => ⟨S3200000, .i32⟩
  | .hbm, ⟨13, _⟩ => ⟨S3300000, .i32⟩
  | .hbm, ⟨14, _⟩ => ⟨S_, .f32⟩
  | .hbm, ⟨15, _⟩ => ⟨S3300000, .f32⟩
  | .hbm, ⟨16, _⟩ => ⟨S_, .f32⟩
  | .hbm, ⟨17, _⟩ => ⟨S100000, .f32⟩
  | .hbm, ⟨18, _⟩ => ⟨S3300000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000x30, .f32⟩
  | .hbm, ⟨31, _⟩ => ⟨S_, .i32⟩
  | .hbm, ⟨32, _⟩ => ⟨S3300000, .i32⟩
  | .hbm, ⟨33, _⟩ => ⟨S3300000, .i1⟩
  | .hbm, ⟨34, _⟩ => ⟨S_, .i32⟩
  | .hbm, ⟨35, _⟩ => ⟨S3300000, .i32⟩
  | .hbm, ⟨36, _⟩ => ⟨S3300000, .i32⟩
  | .hbm, ⟨37, _⟩ => ⟨S3300000, .i32⟩
  | .hbm, ⟨38, _⟩ => ⟨S3300000x1, .i32⟩
  | .hbm, ⟨39, _⟩ => ⟨S3300000, .f32⟩
  | .hbm, ⟨40, _⟩ => ⟨S_, .i32⟩
  | .hbm, ⟨41, _⟩ => ⟨S3300000, .i32⟩
  | .hbm, ⟨42, _⟩ => ⟨S3300000, .i1⟩
  | .hbm, ⟨43, _⟩ => ⟨S_, .i32⟩
  | .hbm, ⟨44, _⟩ => ⟨S3300000, .i32⟩
  | .hbm, ⟨45, _⟩ => ⟨S3300000, .i32⟩
  | .hbm, ⟨46, _⟩ => ⟨S3300000, .i32⟩
  | .hbm, ⟨47, _⟩ => ⟨S3300000x1, .i32⟩
  | .hbm, ⟨48, _⟩ => ⟨S3300000, .f32⟩
  | .hbm, ⟨49, _⟩ => ⟨S3300000, .f32⟩
  | .hbm, ⟨50, _⟩ => ⟨S3300000x1, .f32⟩
  | .hbm, ⟨51, _⟩ => ⟨S_, .i32⟩
  | .hbm, ⟨52, _⟩ => ⟨S3300000, .i32⟩
  | .hbm, ⟨53, _⟩ => ⟨S3300000, .i1⟩
  | .hbm, ⟨54, _⟩ => ⟨S_, .i32⟩
  | .hbm, ⟨55, _⟩ => ⟨S3300000, .i32⟩
  | .hbm, ⟨56, _⟩ => ⟨S3300000, .i32⟩
  | .hbm, ⟨57, _⟩ => ⟨S3300000, .i32⟩
  | .hbm, ⟨58, _⟩ => ⟨S3300000x1, .i32⟩
  | .hbm, ⟨59, _⟩ => ⟨S3300000x30, .f32⟩
  | .hbm, ⟨60, _⟩ => ⟨S3300000x30, .f32⟩
  | .hbm, ⟨61, _⟩ => ⟨S_, .f32⟩
  | .hbm, ⟨62, _⟩ => ⟨S100000x30, .f32⟩
  | .hbm, ⟨63, _⟩ => ⟨S3300000x1, .i32⟩
  | .hbm, ⟨64, _⟩ => ⟨S100000x30, .f32⟩
  | .hbm, ⟨65, _⟩ => ⟨S1x30, .f32⟩
  | .hbm, ⟨66, _⟩ => ⟨S100000x30, .f32⟩
  | .hbm, ⟨67, _⟩ => ⟨S100000x8, .f32⟩
  | .hbm, ⟨68, _⟩ => ⟨S_, .i32⟩
  | .hbm, ⟨69, _⟩ => ⟨S3300000, .i32⟩
  | .hbm, ⟨70, _⟩ => ⟨S3300000, .i1⟩
  | .hbm, ⟨71, _⟩ => ⟨S_, .i32⟩
  | .hbm, ⟨72, _⟩ => ⟨S3300000, .i32⟩
  | .hbm, ⟨73, _⟩ => ⟨S3300000, .i32⟩
  | .hbm, ⟨74, _⟩ => ⟨S3300000, .i32⟩
  | .hbm, ⟨75, _⟩ => ⟨S3300000x1, .i32⟩
  | .hbm, ⟨76, _⟩ => ⟨S3300000, .f32⟩
  | .hbm, ⟨77, _⟩ => ⟨S_, .i32⟩
  | .hbm, ⟨78, _⟩ => ⟨S3300000, .i32⟩
  | .hbm, ⟨79, _⟩ => ⟨S3300000, .i1⟩
  | .hbm, ⟨80, _⟩ => ⟨S_, .i32⟩
  | .hbm, ⟨81, _⟩ => ⟨S3300000, .i32⟩
  | .hbm, ⟨82, _⟩ => ⟨S3300000, .i32⟩
  | .hbm, ⟨83, _⟩ => ⟨S3300000, .i32⟩
  | .hbm, ⟨84, _⟩ => ⟨S3300000x1, .i32⟩
  | .hbm, ⟨85, _⟩ => ⟨S3300000, .f32⟩
  | .hbm, ⟨86, _⟩ => ⟨S3300000, .f32⟩
  | .hbm, ⟨87, _⟩ => ⟨S3300000x1, .f32⟩
  | .hbm, ⟨88, _⟩ => ⟨S_, .i32⟩
  | .hbm, ⟨89, _⟩ => ⟨S3300000, .i32⟩
  | .hbm, ⟨90, _⟩ => ⟨S3300000, .i1⟩
  | .hbm, ⟨91, _⟩ => ⟨S_, .i32⟩
  | .hbm, ⟨92, _⟩ => ⟨S3300000, .i32⟩
  | .hbm, ⟨93, _⟩ => ⟨S3300000, .i32⟩
  | .hbm, ⟨94, _⟩ => ⟨S3300000, .i32⟩
  | .hbm, ⟨95, _⟩ => ⟨S3300000x1, .i32⟩
  | .hbm, ⟨96, _⟩ => ⟨S3300000x8, .f32⟩
  | .hbm, ⟨97, _⟩ => ⟨S3300000x8, .f32⟩
  | .hbm, ⟨98, _⟩ => ⟨S_, .f32⟩
  | .hbm, ⟨99, _⟩ => ⟨S100000x8, .f32⟩
  | .hbm, ⟨100, _⟩ => ⟨S3300000x1, .i32⟩
  | .hbm, ⟨101, _⟩ => ⟨S100000x8, .f32⟩
  | .hbm, ⟨102, _⟩ => ⟨S1x8, .f32⟩
  | .hbm, ⟨103, _⟩ => ⟨S100000x8, .f32⟩
  | .hbm, ⟨104, _⟩ => ⟨S_, .f32⟩
  | .hbm, ⟨105, _⟩ => ⟨S2048x8, .f32⟩
  | .hbm, ⟨106, _⟩ => ⟨S100000x1, .i32⟩
  | .hbm, ⟨107, _⟩ => ⟨S2048x8, .f32⟩
  | .hbm, ⟨108, _⟩ => ⟨S_, .f32⟩
  | .hbm, ⟨109, _⟩ => ⟨S100000, .f32⟩
  | .hbm, ⟨110, _⟩ => ⟨S_, .f32⟩
  | .hbm, ⟨111, _⟩ => ⟨S2048, .f32⟩
  | .hbm, ⟨112, _⟩ => ⟨S100000x1, .i32⟩
  | .hbm, ⟨113, _⟩ => ⟨S2048, .f32⟩
  | .hbm, ⟨114, _⟩ => ⟨S_, .f32⟩
  | .hbm, ⟨115, _⟩ => ⟨S2048, .f32⟩
  | .hbm, ⟨116, _⟩ => ⟨S2048, .f32⟩
  | .hbm, ⟨117, _⟩ => ⟨S2048x1, .f32⟩
  | .hbm, ⟨118, _⟩ => ⟨S2048x8, .f32⟩
  | .hbm, ⟨119, _⟩ => ⟨S2048x8, .f32⟩
  | .local _ .vmem, ⟨0, _⟩ => ⟨S10000x5, .f32⟩
  | .local _ .vmem, ⟨1, _⟩ => ⟨S10000x5, .f32⟩
  | .local _ .vmem, ⟨2, _⟩ => ⟨S5x30, .f32⟩
  | .local _ .vmem, ⟨3, _⟩ => ⟨S10000x30, .f32⟩
  | .local _ .vmem, ⟨4, _⟩ => ⟨S10000x30, .f32⟩
  | .local _ .vmem, ⟨5, _⟩ => ⟨S10000x30, .f32⟩
  | .local _ .vmem, ⟨6, _⟩ => ⟨S10000x30, .f32⟩
  | .local _ .vmem, ⟨7, _⟩ => ⟨S10000x1, .f32⟩
  | .local _ .vmem, ⟨8, _⟩ => ⟨S10000x1, .f32⟩
  | .local _ .vmem, ⟨9, _⟩ => ⟨S10000x30, .f32⟩
  | .local _ .vmem, ⟨10, _⟩ => ⟨S10000x30, .f32⟩
  | .local _ .vmem, ⟨11, _⟩ => ⟨S10000x30, .f32⟩
  | .local _ .vmem, ⟨12, _⟩ => ⟨S10000x30, .f32⟩
  | .local _ .vmem, ⟨13, _⟩ => ⟨S1x30, .f32⟩
  | .local _ .vmem, ⟨14, _⟩ => ⟨S10000x30, .f32⟩
  | .local _ .vmem, ⟨15, _⟩ => ⟨S10000x30, .f32⟩
  | .local _ .vmem, ⟨16, _⟩ => ⟨S10000x30, .f32⟩
  | .local _ .vmem, ⟨17, _⟩ => ⟨S10000x30, .f32⟩
  | .local _ .vmem, ⟨18, _⟩ => ⟨S30x8, .f32⟩
  | .local _ .vmem, ⟨19, _⟩ => ⟨S10000x8, .f32⟩
  | .local _ .vmem, ⟨20, _⟩ => ⟨S10000x8, .f32⟩
  | .local _ .vmem, ⟨21, _⟩ => ⟨S10000x8, .f32⟩
  | .local _ .vmem, ⟨22, _⟩ => ⟨S10000x8, .f32⟩
  | .local _ .vmem, ⟨23, _⟩ => ⟨S10000x1, .f32⟩
  | .local _ .vmem, ⟨24, _⟩ => ⟨S10000x1, .f32⟩
  | .local _ .vmem, ⟨25, _⟩ => ⟨S10000x8, .f32⟩
  | .local _ .vmem, ⟨26, _⟩ => ⟨S10000x8, .f32⟩
  | .local _ .vmem, ⟨27, _⟩ => ⟨S10000x8, .f32⟩
  | .local _ .vmem, ⟨28, _⟩ => ⟨S10000x8, .f32⟩
  | .local _ .vmem, ⟨29, _⟩ => ⟨S1x8, .f32⟩
  | .local _ .vmem, ⟨30, _⟩ => ⟨S10000x8, .f32⟩
  | .local _ .vmem, ⟨31, _⟩ => ⟨S10000x8, .f32⟩
  | _, _ => ⟨S100000x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_c_6 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_c_8 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_9 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_10 : Ref sig .tc := ⟨.hbm, 68, rfl⟩
abbrev main_v47 : Ref sig .tc := ⟨.hbm, 69, rfl⟩
abbrev main_v48 : Ref sig .tc := ⟨.hbm, 70, rfl⟩
abbrev main_c_11 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_c_12 : Ref sig .tc := ⟨.hbm, 77, rfl⟩
abbrev main_v54 : Ref sig .tc := ⟨.hbm, 78, rfl⟩
abbrev main_v55 : Ref sig .tc := ⟨.hbm, 79, rfl⟩
abbrev main_c_13 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_c_14 : Ref sig .tc := ⟨.hbm, 88, rfl⟩
abbrev main_v63 : Ref sig .tc := ⟨.hbm, 89, rfl⟩
abbrev main_v64 : Ref sig .tc := ⟨.hbm, 90, rfl⟩
abbrev main_c_15 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_16 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_17 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_18 : Ref sig .tc := ⟨.hbm, 108, rfl⟩
abbrev main_v79 : Ref sig .tc := ⟨.hbm, 109, rfl⟩
abbrev main_cst_19 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_cst_20 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg1_1 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem1_1 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x30 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x30 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![330], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x30 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x30 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x30 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x30 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x30 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x30 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S30x8 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x8 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![330], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x8 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S10000x8 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x8 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x8 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x8 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S10000x5_S10000x5_0_0 : ∀ a, (![0, 0] : Fin 2 → Nat) a + S10000x5.size a ≤ S10000x5.size a
  h_S10000x5 : 0 < S10000x5.numel
  bitsLt_bf16_f32 : FTy.bits .bf16 < FTy.bits .f32
  inb_S5x30_S5x30_0_0 : ∀ a, (![0, 0] : Fin 2 → Nat) a + S5x30.size a ≤ S5x30.size a
  h_S5x30 : 0 < S5x30.numel
  inb_S10000x30_S10000x30_0_0 : ∀ a, (![0, 0] : Fin 2 → Nat) a + S10000x30.size a ≤ S10000x30.size a
  h_S10000x30 : 0 < S10000x30.numel
  shapeCasts_S3300000_S3300000x1 : S3300000.ShapeCasts S3300000x1
  shapeCasts_S10000x30_S10000x30 : S10000x30.ShapeCasts S10000x30
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x30 : S10000x1.Broadcasts S10000x30
  bcast_S_S100000x30 : S_.BroadcastsInDim S100000x30 (![] : Fin 0 → Fin S100000x30.rank)
  shapeCasts_S30_S1x30 : S30.ShapeCasts S1x30
  inb_S1x30_S1x30_0_0 : ∀ a, (![0, 0] : Fin 2 → Nat) a + S1x30.size a ≤ S1x30.size a
  h_S1x30 : 0 < S1x30.numel
  shapeCasts_S1x30_S1x30 : S1x30.ShapeCasts S1x30
  broadcasts_S1x30_S10000x30 : S1x30.Broadcasts S10000x30
  inb_S30x8_S30x8_0_0 : ∀ a, (![0, 0] : Fin 2 → Nat) a + S30x8.size a ≤ S30x8.size a
  h_S30x8 : 0 < S30x8.numel
  inb_S10000x8_S10000x8_0_0 : ∀ a, (![0, 0] : Fin 2 → Nat) a + S10000x8.size a ≤ S10000x8.size a
  h_S10000x8 : 0 < S10000x8.numel
  shapeCasts_S10000x8_S10000x8 : S10000x8.ShapeCasts S10000x8
  broadcasts_S10000x1_S10000x8 : S10000x1.Broadcasts S10000x8
  bcast_S_S100000x8 : S_.BroadcastsInDim S100000x8 (![] : Fin 0 → Fin S100000x8.rank)
  shapeCasts_S8_S1x8 : S8.ShapeCasts S1x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S10000x8 : S1x8.Broadcasts S10000x8
  bcast_S_S2048x8 : S_.BroadcastsInDim S2048x8 (![] : Fin 0 → Fin S2048x8.rank)
  bcast_S100000_S100000x1_0 : S100000.BroadcastsInDim S100000x1 (![0] : Fin 1 → Fin S100000x1.rank)
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x8_0_1 : S2048x1.BroadcastsInDim S2048x8 (![0, 1] : Fin 2 → Fin S2048x8.rank)
  scatter_S100000_S3300000x1_S3300000_n_0_0_1_wf : ScatterDims.WF S100000 S3300000x1 S3300000 [] [0] [0] 1
  dot_S10000x5_S5x30_S10000x30_1_0_0_1_n_n_wf : DotDims.WF S10000x5 S5x30 S10000x30 [1] [0] [0] [1] [] []
  gather_S100000_S3300000x1_S3300000_n_0_n_n_0_1_1_wf : GatherDims.WF S100000 S3300000x1 S3300000 [] [0] [] [0] [] 1 ![1]
  gather_S100000x30_S3300000x1_S3300000x30_1_0_n_n_0_1_130_wf : GatherDims.WF S100000x30 S3300000x1 S3300000x30 [1] [0] [] [0] [] 1 ![1, 30]
  scatter_S100000x30_S3300000x1_S3300000x30_1_0_0_1_wf : ScatterDims.WF S100000x30 S3300000x1 S3300000x30 [1] [0] [0] 1
  dot_S10000x30_S30x8_S10000x8_1_0_0_1_n_n_wf : DotDims.WF S10000x30 S30x8 S10000x8 [1] [0] [0] [1] [] []
  gather_S100000x8_S3300000x1_S3300000x8_1_0_n_n_0_1_18_wf : GatherDims.WF S100000x8 S3300000x1 S3300000x8 [1] [0] [] [0] [] 1 ![1, 8]
  scatter_S100000x8_S3300000x1_S3300000x8_1_0_0_1_wf : ScatterDims.WF S100000x8 S3300000x1 S3300000x8 [1] [0] [0] 1
  scatter_S2048x8_S100000x1_S100000x8_1_0_0_1_wf : ScatterDims.WF S2048x8 S100000x1 S100000x8 [1] [0] [0] 1
  scatter_S2048_S100000x1_S100000_n_0_0_1_wf : ScatterDims.WF S2048 S100000x1 S100000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x5.size a ≤ S100000x5.size a
  hwx0_0 : ∀ i : grid0.Coords, EltTy.bits .f32 = 32 ∨ (Rect.block (s := S100000x5) S10000x5.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5x30.size a ≤ S5x30.size a
  hwx0_1 : ∀ i : grid0.Coords, EltTy.bits .f32 = 32 ∨ (Rect.block (s := S5x30) S5x30.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x30.size a ≤ S100000x30.size a
  hwx0_2 : ∀ i : grid0.Coords, EltTy.bits .f32 = 32 ∨ (Rect.block (s := S100000x30) S10000x30.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x30.size a ≤ S3300000x30.size a
  hwx1_0 : ∀ i : grid1.Coords, EltTy.bits .f32 = 32 ∨ (Rect.block (s := S3300000x30) S10000x30.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S3300000x1.size a
  hwx1_1 : ∀ i : grid1.Coords, EltTy.bits .f32 = 32 ∨ (Rect.block (s := S3300000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x30.size a ≤ S3300000x30.size a
  hwx1_2 : ∀ i : grid1.Coords, EltTy.bits .f32 = 32 ∨ (Rect.block (s := S3300000x30) S10000x30.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x30.size a ≤ S100000x30.size a
  hwx2_0 : ∀ i : grid2.Coords, EltTy.bits .f32 = 32 ∨ (Rect.block (s := S100000x30) S10000x30.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x30.size a ≤ S1x30.size a
  hwx2_1 : ∀ i : grid2.Coords, EltTy.bits .f32 = 32 ∨ (Rect.block (s := S1x30) S1x30.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x30.size a ≤ S100000x30.size a
  hwx2_2 : ∀ i : grid2.Coords, EltTy.bits .f32 = 32 ∨ (Rect.block (s := S100000x30) S10000x30.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x30.size a ≤ S100000x30.size a
  hwx3_0 : ∀ i : grid3.Coords, EltTy.bits .f32 = 32 ∨ (Rect.block (s := S100000x30) S10000x30.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S30x8.size a ≤ S30x8.size a
  hwx3_1 : ∀ i : grid3.Coords, EltTy.bits .f32 = 32 ∨ (Rect.block (s := S30x8) S30x8.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x8.size a ≤ S100000x8.size a
  hwx3_2 : ∀ i : grid3.Coords, EltTy.bits .f32 = 32 ∨ (Rect.block (s := S100000x8) S10000x8.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x8.size a ≤ S3300000x8.size a
  hwx4_0 : ∀ i : grid4.Coords, EltTy.bits .f32 = 32 ∨ (Rect.block (s := S3300000x8) S10000x8.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x1.size a ≤ S3300000x1.size a
  hwx4_1 : ∀ i : grid4.Coords, EltTy.bits .f32 = 32 ∨ (Rect.block (s := S3300000x1) S10000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x8.size a ≤ S3300000x8.size a
  hwx4_2 : ∀ i : grid4.Coords, EltTy.bits .f32 = 32 ∨ (Rect.block (s := S3300000x8) S10000x8.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x8.size a ≤ S100000x8.size a
  hwx5_0 : ∀ i : grid5.Coords, EltTy.bits .f32 = 32 ∨ (Rect.block (s := S100000x8) S10000x8.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x8.size a ≤ S1x8.size a
  hwx5_1 : ∀ i : grid5.Coords, EltTy.bits .f32 = 32 ∨ (Rect.block (s := S1x8) S1x8.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x8.size a ≤ S100000x8.size a
  hwx5_2 : ∀ i : grid5.Coords, EltTy.bits .f32 = 32 ∨ (Rect.block (s := S100000x8) S10000x8.size (cc5_transform_2 i) (hinb5_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def dot_S10000x5_S5x30_S10000x30_1_0_0_1_n_n : DotDims S10000x5 S5x30 S10000x30 where
  lhsContracting := [1]
  rhsContracting := [0]
  lhsNonContracting := [0]
  rhsNonContracting := [1]
  lhsBatch := []
  rhsBatch := []
  wf := dot_S10000x5_S5x30_S10000x30_1_0_0_1_n_n_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x30_S3300000x1_S3300000x30_1_0_n_n_0_1_130 : GatherDims S100000x30 S3300000x1 S3300000x30 where
  offsetDims := [1]
  collapsedSliceDims := [0]
  operandBatchingDims := []
  startIndicesBatchingDims := []
  startIndexMap := [0]
  indexVectorDim := 1
  sliceSizes := ![1, 30]
  wf := gather_S100000x30_S3300000x1_S3300000x30_1_0_n_n_0_1_130_wf
def scatter_S100000x30_S3300000x1_S3300000x30_1_0_0_1 : ScatterDims S100000x30 S3300000x1 S3300000x30 where
  updateWindowDims := [1]
  insertedWindowDims := [0]
  scatterDimsToOperandDims := [0]
  indexVectorDim := 1
  wf := scatter_S100000x30_S3300000x1_S3300000x30_1_0_0_1_wf
def dot_S10000x30_S30x8_S10000x8_1_0_0_1_n_n : DotDims S10000x30 S30x8 S10000x8 where
  lhsContracting := [1]
  rhsContracting := [0]
  lhsNonContracting := [0]
  rhsNonContracting := [1]
  lhsBatch := []
  rhsBatch := []
  wf := dot_S10000x30_S30x8_S10000x8_1_0_0_1_n_n_wf
def gather_S100000x8_S3300000x1_S3300000x8_1_0_n_n_0_1_18 : GatherDims S100000x8 S3300000x1 S3300000x8 where
  offsetDims := [1]
  collapsedSliceDims := [0]
  operandBatchingDims := []
  startIndicesBatchingDims := []
  startIndexMap := [0]
  indexVectorDim := 1
  sliceSizes := ![1, 8]
  wf := gather_S100000x8_S3300000x1_S3300000x8_1_0_n_n_0_1_18_wf
def scatter_S100000x8_S3300000x1_S3300000x8_1_0_0_1 : ScatterDims S100000x8 S3300000x1 S3300000x8 where
  updateWindowDims := [1]
  insertedWindowDims := [0]
  scatterDimsToOperandDims := [0]
  indexVectorDim := 1
  wf := scatter_S100000x8_S3300000x1_S3300000x8_1_0_0_1_wf
def scatter_S2048x8_S100000x1_S100000x8_1_0_0_1 : ScatterDims S2048x8 S100000x1 S100000x8 where
  updateWindowDims := [1]
  insertedWindowDims := [0]
  scatterDimsToOperandDims := [0]
  indexVectorDim := 1
  wf := scatter_S2048x8_S100000x1_S100000x8_1_0_0_1_wf
def scatter_S2048_S100000x1_S100000_n_0_0_1 : ScatterDims S2048 S100000x1 S100000 where
  updateWindowDims := []
  insertedWindowDims := [0]
  scatterDimsToOperandDims := [0]
  indexVectorDim := 1
  wf := scatter_S2048_S100000x1_S100000_n_0_0_1_wf

abbrev win0_0 : Pipeline.Window sig grid0 :=
  Pipeline.Window.ofSpec (Memref.whole main_arg0) S10000x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S5x30.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S10000x30.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v39) S10000x30.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v40) S10000x30.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v43) S10000x30.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S1x30.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S10000x30.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v45) S10000x30.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S30x8.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v46) S10000x8.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v69) S10000x8.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v62) S10000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v70) S10000x8.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v73) S10000x8.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v74) S1x8.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v75) S10000x8.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x5 : Shape := ⟨2, ![100000, 5]⟩
abbrev S2x3200000 : Shape := ⟨2, ![2, 3200000]⟩
abbrev S100000 : Shape := ⟨1, ![100000]⟩
abbrev S5x30 : Shape := ⟨2, ![5, 30]⟩
abbrev S30 : Shape := ⟨1, ![30]⟩
abbrev S30x8 : Shape := ⟨2, ![30, 8]⟩
abbrev S8 : Shape := ⟨1, ![8]⟩
abbrev S1x3200000 : Shape := ⟨2, ![1, 3200000]⟩
abbrev S3200000 : Shape := ⟨1, ![3200000]⟩
abbrev S3300000 : Shape := ⟨1, ![3300000]⟩
abbrev S100000x30 : Shape := ⟨2, ![100000, 30]⟩
abbrev S_ : Shape := ⟨0, ![]⟩
abbrev S3300000x1 : Shape := ⟨2, ![3300000, 1]⟩
abbrev S3300000x30 : Shape := ⟨2, ![3300000, 30]⟩
abbrev S1x30 : Shape := ⟨2, ![1, 30]⟩
abbrev S100000x8 : Shape := ⟨2, ![100000, 8]⟩
abbrev S3300000x8 : Shape := ⟨2, ![3300000, 8]⟩
abbrev S1x8 : Shape := ⟨2, ![1, 8]⟩
abbrev S2048x8 : Shape := ⟨2, ![2048, 8]⟩
abbrev S100000x1 : Shape := ⟨2, ![100000, 1]⟩
abbrev S2048 : Shape := ⟨1, ![2048]⟩
abbrev S2048x1 : Shape := ⟨2, ![2048, 1]⟩

abbrev nBuf : Space → Nat
  | .hbm => 143
  | .vmem => 0
  | .smem => 0
  | _ => 0

abbrev hbmTy0_0 (i : Nat) : BufTy := match i % 128 with
  | 0 => ⟨S100000x5, .f32⟩
  | 1 => ⟨S2x3200000, .i32⟩
  | 2 => ⟨S100000, .i32⟩
  | 3 => ⟨S5x30, .f32⟩
  | 4 => ⟨S30, .f32⟩
  | 5 => ⟨S30x8, .f32⟩
  | 6 => ⟨S8, .f32⟩
  | 7 => ⟨S100000, .i32⟩
  | 8 => ⟨S1x3200000, .i32⟩
  | 9 => ⟨S3200000, .i32⟩
  | 10 => ⟨S3300000, .i32⟩
  | 11 => ⟨S1x3200000, .i32⟩
  | 12 => ⟨S3200000, .i32⟩
  | 13 => ⟨S3300000, .i32⟩
  | 14 => ⟨S100000x30, .f32⟩
  | 15 => ⟨S_, .f32⟩
  | 16 => ⟨S3300000, .f32⟩
  | 17 => ⟨S_, .f32⟩
  | 18 => ⟨S100000, .f32⟩
  | 19 => ⟨S3300000x1, .i32⟩
  | 20 => ⟨S100000, .f32⟩
  | 21 => ⟨S_, .f32⟩
  | 22 => ⟨S100000, .f32⟩
  | 23 => ⟨S100000, .i1⟩
  | 24 => ⟨S_, .f32⟩
  | 25 => ⟨S100000, .f32⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S3300000, .i32⟩
  | 33 => ⟨S3300000, .i1⟩
  | 34 => ⟨S_, .i32⟩
  | 35 => ⟨S3300000, .i32⟩
  | 36 => ⟨S3300000, .i32⟩
  | 37 => ⟨S3300000, .i32⟩
  | 38 => ⟨S3300000x1, .i32⟩
  | 39 => ⟨S3300000, .f32⟩
  | 40 => ⟨S_, .i32⟩
  | 41 => ⟨S3300000, .i32⟩
  | 42 => ⟨S3300000, .i1⟩
  | 43 => ⟨S_, .i32⟩
  | 44 => ⟨S3300000, .i32⟩
  | 45 => ⟨S3300000, .i32⟩
  | 46 => ⟨S3300000, .i32⟩
  | 47 => ⟨S3300000x1, .i32⟩
  | 48 => ⟨S3300000, .f32⟩
  | 49 => ⟨S3300000, .f32⟩
  | 50 => ⟨S_, .i32⟩
  | 51 => ⟨S3300000, .i32⟩
  | 52 => ⟨S3300000, .i1⟩
  | 53 => ⟨S_, .i32⟩
  | 54 => ⟨S3300000, .i32⟩
  | 55 => ⟨S3300000, .i32⟩
  | 56 => ⟨S3300000, .i32⟩
  | 57 => ⟨S3300000x1, .i32⟩
  | 58 => ⟨S3300000x30, .f32⟩
  | 59 => ⟨S3300000x1, .f32⟩
  | 60 => ⟨S3300000x30, .f32⟩
  | 61 => ⟨S3300000x30, .f32⟩
  | 62 => ⟨S_, .f32⟩
  | 63 => ⟨S100000x30, .f32⟩
  | 64 => ⟨S3300000x1, .i32⟩
  | 65 => ⟨S100000x30, .f32⟩
  | 66 => ⟨S1x30, .f32⟩
  | 67 => ⟨S100000x30, .f32⟩
  | 68 => ⟨S100000x30, .f32⟩
  | 69 => ⟨S_, .f32⟩
  | 70 => ⟨S100000x30, .f32⟩
  | 71 => ⟨S100000x30, .f32⟩
  | 72 => ⟨S100000x8, .f32⟩
  | 73 => ⟨S_, .f32⟩
  | 74 => ⟨S3300000, .f32⟩
  | 75 => ⟨S_, .f32⟩
  | 76 => ⟨S100000, .f32⟩
  | 77 => ⟨S3300000x1, .i32⟩
  | 78 => ⟨S100000, .f32⟩
  | 79 => ⟨S_, .f32⟩
  | 80 => ⟨S100000, .f32⟩
  | 81 => ⟨S100000, .i1⟩
  | 82 => ⟨S_, .f32⟩
  | 83 => ⟨S100000, .f32⟩
  | 84 => ⟨S100000, .f32⟩
  | 85 => ⟨S_, .f32⟩
  | 86 => ⟨S_, .f32⟩
  | 87 => ⟨S100000, .f32⟩
  | 88 => ⟨S100000, .f32⟩
  | 89 => ⟨S_, .i32⟩
  | 90 => ⟨S3300000, .i32⟩
  | 91 => ⟨S3300000, .i1⟩
  | 92 => ⟨S_, .i32⟩
  | 93 => ⟨S3300000, .i32⟩
  | 94 => ⟨S3300000, .i32⟩
  | 95 => ⟨S3300000, .i32⟩
  | 96 => ⟨S3300000x1, .i32⟩
  | 97 => ⟨S3300000, .f32⟩
  | 98 => ⟨S_, .i32⟩
  | 99 => ⟨S3300000, .i32⟩
  | 100 => ⟨S3300000, .i1⟩
  | 101 => ⟨S_, .i32⟩
  | 102 => ⟨S3300000, .i32⟩
  | 103 => ⟨S3300000, .i32⟩
  | 104 => ⟨S3300000, .i32⟩
  | 105 => ⟨S3300000x1, .i32⟩
  | 106 => ⟨S3300000, .f32⟩
  | 107 => ⟨S3300000, .f32⟩
  | 108 => ⟨S_, .i32⟩
  | 109 => ⟨S3300000, .i32⟩
  | 110 => ⟨S3300000, .i1⟩
  | 111 => ⟨S_, .i32⟩
  | 112 => ⟨S3300000, .i32⟩
  | 113 => ⟨S3300000, .i32⟩
  | 114 => ⟨S3300000, .i32⟩
  | 115 => ⟨S3300000x1, .i32⟩
  | 116 => ⟨S3300000x8, .f32⟩
  | 117 => ⟨S3300000x1, .f32⟩
  | 118 => ⟨S3300000x8, .f32⟩
  | 119 => ⟨S3300000x8, .f32⟩
  | 120 => ⟨S_, .f32⟩
  | 121 => ⟨S100000x8, .f32⟩
  | 122 => ⟨S3300000x1, .i32⟩
  | 123 => ⟨S100000x8, .f32⟩
  | 124 => ⟨S1x8, .f32⟩
  | 125 => ⟨S100000x8, .f32⟩
  | 126 => ⟨S100000x8, .f32⟩
  | 127 => ⟨S_, .f32⟩
  | _ => ⟨S100000x5, .f32⟩

abbrev hbmTy0_1 (i : Nat) : BufTy := match i % 128 with
  | 0 => ⟨S2048x8, .f32⟩
  | 1 => ⟨S100000x1, .i32⟩
  | 2 => ⟨S2048x8, .f32⟩
  | 3 => ⟨S_, .f32⟩
  | 4 => ⟨S100000, .f32⟩
  | 5 => ⟨S_, .f32⟩
  | 6 => ⟨S2048, .f32⟩
  | 7 => ⟨S100000x1, .i32⟩
  | 8 => ⟨S2048, .f32⟩
  | 9 => ⟨S_, .f32⟩
  | 10 => ⟨S2048, .f32⟩
  | 11 => ⟨S2048, .f32⟩
  | 12 => ⟨S2048x1, .f32⟩
  | 13 => ⟨S2048x8, .f32⟩
  | 14 => ⟨S2048x8, .f32⟩
  | _ => ⟨S100000x5, .f32⟩

abbrev hbmTy (i : Nat) : BufTy := match i / 128 with
  | 0 => hbmTy0_0 i
  | 1 => hbmTy0_1 i
  | _ => ⟨S100000x5, .f32⟩

abbrev bufTy : (tb : Table) → Fin (tcTables nBuf tb) → BufTy
  | .hbm, ⟨i, _⟩ => hbmTy i
  | _, _ => ⟨S100000x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_c_6 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_7 : Ref sig .tc := ⟨.hbm, 50, rfl⟩
abbrev main_v32 : Ref sig .tc := ⟨.hbm, 51, rfl⟩
abbrev main_v33 : Ref sig .tc := ⟨.hbm, 52, rfl⟩
abbrev main_c_8 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_9 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_call1_cst : Ref sig .tc := ⟨.hbm, 69, rfl⟩
abbrev main_call1_v0 : Ref sig .tc := ⟨.hbm, 70, rfl⟩
abbrev main_v48 : Ref sig .tc := ⟨.hbm, 71, rfl⟩
abbrev main_v49 : Ref sig .tc := ⟨.hbm, 72, rfl⟩
abbrev main_cst_10 : Ref sig .tc := ⟨.hbm, 73, rfl⟩
abbrev main_v50 : Ref sig .tc := ⟨.hbm, 74, rfl⟩
abbrev main_cst_11 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_12 : Ref sig .tc := ⟨.hbm, 79, rfl⟩
abbrev main_v54 : Ref sig .tc := ⟨.hbm, 80, rfl⟩
abbrev main_v55 : Ref sig .tc := ⟨.hbm, 81, rfl⟩
abbrev main_cst_13 : Ref sig .tc := ⟨.hbm, 82, rfl⟩
abbrev main_v56 : Ref sig .tc := ⟨.hbm, 83, rfl⟩
abbrev main_v57 : Ref sig .tc := ⟨.hbm, 84, rfl⟩
abbrev main_cst_14 : Ref sig .tc := ⟨.hbm, 85, rfl⟩
abbrev main_call2_v0 : Ref sig .tc := ⟨.hbm, 86, rfl⟩
abbrev main_call2_v1 : Ref sig .tc := ⟨.hbm, 87, rfl⟩
abbrev main_v58 : Ref sig .tc := ⟨.hbm, 88, rfl⟩
abbrev main_c_15 : Ref sig .tc := ⟨.hbm, 89, rfl⟩
abbrev main_v59 : Ref sig .tc := ⟨.hbm, 90, rfl⟩
abbrev main_v60 : Ref sig .tc := ⟨.hbm, 91, rfl⟩
abbrev main_c_16 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_c_17 : Ref sig .tc := ⟨.hbm, 98, rfl⟩
abbrev main_v66 : Ref sig .tc := ⟨.hbm, 99, rfl⟩
abbrev main_v67 : Ref sig .tc := ⟨.hbm, 100, rfl⟩
abbrev main_c_18 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_c_19 : Ref sig .tc := ⟨.hbm, 108, rfl⟩
abbrev main_v74 : Ref sig .tc := ⟨.hbm, 109, rfl⟩
abbrev main_v75 : Ref sig .tc := ⟨.hbm, 110, rfl⟩
abbrev main_c_20 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_cst_21 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_cst_22 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_cst_23 : Ref sig .tc := ⟨.hbm, 131, rfl⟩
abbrev main_v93 : Ref sig .tc := ⟨.hbm, 132, rfl⟩
abbrev main_cst_24 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_cst_25 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x30_0_1 : S3300000x1.BroadcastsInDim S3300000x30 (![0, 1] : Fin 2 → Fin S3300000x30.rank)
  bcast_S_S100000x30 : S_.BroadcastsInDim S100000x30 (![] : Fin 0 → Fin S100000x30.rank)
  bcast_S30_S1x30_1 : S30.BroadcastsInDim S1x30 (![1] : Fin 1 → Fin S1x30.rank)
  bcast_S1x30_S100000x30_0_1 : S1x30.BroadcastsInDim S100000x30 (![0, 1] : Fin 2 → Fin S100000x30.rank)
  bcast_S3300000x1_S3300000x8_0_1 : S3300000x1.BroadcastsInDim S3300000x8 (![0, 1] : Fin 2 → Fin S3300000x8.rank)
  bcast_S_S100000x8 : S_.BroadcastsInDim S100000x8 (![] : Fin 0 → Fin S100000x8.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  bcast_S_S2048x8 : S_.BroadcastsInDim S2048x8 (![] : Fin 0 → Fin S2048x8.rank)
  bcast_S100000_S100000x1_0 : S100000.BroadcastsInDim S100000x1 (![0] : Fin 1 → Fin S100000x1.rank)
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x8_0_1 : S2048x1.BroadcastsInDim S2048x8 (![0, 1] : Fin 2 → Fin S2048x8.rank)
  dot_S100000x5_S5x30_S100000x30_1_0_0_1_n_n_wf : DotDims.WF S100000x5 S5x30 S100000x30 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x30_S3300000x1_S3300000x30_1_0_n_n_0_1_130_wf : GatherDims.WF S100000x30 S3300000x1 S3300000x30 [1] [0] [] [0] [] 1 ![1, 30]
  scatter_S100000x30_S3300000x1_S3300000x30_1_0_0_1_wf : ScatterDims.WF S100000x30 S3300000x1 S3300000x30 [1] [0] [0] 1
  dot_S100000x30_S30x8_S100000x8_1_0_0_1_n_n_wf : DotDims.WF S100000x30 S30x8 S100000x8 [1] [0] [0] [1] [] []
  gather_S100000x8_S3300000x1_S3300000x8_1_0_n_n_0_1_18_wf : GatherDims.WF S100000x8 S3300000x1 S3300000x8 [1] [0] [] [0] [] 1 ![1, 8]
  scatter_S100000x8_S3300000x1_S3300000x8_1_0_0_1_wf : ScatterDims.WF S100000x8 S3300000x1 S3300000x8 [1] [0] [0] 1
  scatter_S2048x8_S100000x1_S100000x8_1_0_0_1_wf : ScatterDims.WF S2048x8 S100000x1 S100000x8 [1] [0] [0] 1
  scatter_S2048_S100000x1_S100000_n_0_0_1_wf : ScatterDims.WF S2048 S100000x1 S100000 [] [0] [0] 1

variable [Facts₀]

def dot_S100000x5_S5x30_S100000x30_1_0_0_1_n_n : DotDims S100000x5 S5x30 S100000x30 where
  lhsContracting := [1]
  rhsContracting := [0]
  lhsNonContracting := [0]
  rhsNonContracting := [1]
  lhsBatch := []
  rhsBatch := []
  wf := dot_S100000x5_S5x30_S100000x30_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x30_S3300000x1_S3300000x30_1_0_n_n_0_1_130 : GatherDims S100000x30 S3300000x1 S3300000x30 where
  offsetDims := [1]
  collapsedSliceDims := [0]
  operandBatchingDims := []
  startIndicesBatchingDims := []
  startIndexMap := [0]
  indexVectorDim := 1
  sliceSizes := ![1, 30]
  wf := gather_S100000x30_S3300000x1_S3300000x30_1_0_n_n_0_1_130_wf
def scatter_S100000x30_S3300000x1_S3300000x30_1_0_0_1 : ScatterDims S100000x30 S3300000x1 S3300000x30 where
  updateWindowDims := [1]
  insertedWindowDims := [0]
  scatterDimsToOperandDims := [0]
  indexVectorDim := 1
  wf := scatter_S100000x30_S3300000x1_S3300000x30_1_0_0_1_wf
def dot_S100000x30_S30x8_S100000x8_1_0_0_1_n_n : DotDims S100000x30 S30x8 S100000x8 where
  lhsContracting := [1]
  rhsContracting := [0]
  lhsNonContracting := [0]
  rhsNonContracting := [1]
  lhsBatch := []
  rhsBatch := []
  wf := dot_S100000x30_S30x8_S100000x8_1_0_0_1_n_n_wf
def gather_S100000x8_S3300000x1_S3300000x8_1_0_n_n_0_1_18 : GatherDims S100000x8 S3300000x1 S3300000x8 where
  offsetDims := [1]
  collapsedSliceDims := [0]
  operandBatchingDims := []
  startIndicesBatchingDims := []
  startIndexMap := [0]
  indexVectorDim := 1
  sliceSizes := ![1, 8]
  wf := gather_S100000x8_S3300000x1_S3300000x8_1_0_n_n_0_1_18_wf
def scatter_S100000x8_S3300000x1_S3300000x8_1_0_0_1 : ScatterDims S100000x8 S3300000x1 S3300000x8 where
  updateWindowDims := [1]
  insertedWindowDims := [0]
  scatterDimsToOperandDims := [0]
  indexVectorDim := 1
  wf := scatter_S100000x8_S3300000x1_S3300000x8_1_0_0_1_wf
def scatter_S2048x8_S100000x1_S100000x8_1_0_0_1 : ScatterDims S2048x8 S100000x1 S100000x8 where
  updateWindowDims := [1]
  insertedWindowDims := [0]
  scatterDimsToOperandDims := [0]
  indexVectorDim := 1
  wf := scatter_S2048x8_S100000x1_S100000x8_1_0_0_1_wf
def scatter_S2048_S100000x1_S100000_n_0_0_1 : ScatterDims S2048 S100000x1 S100000 where
  updateWindowDims := []
  insertedWindowDims := [0]
  scatterDimsToOperandDims := [0]
  indexVectorDim := 1
  wf := scatter_S2048_S100000x1_S100000_n_0_0_1_wf

class Facts : Prop extends Facts₀ where

variable [Facts]
-- ==== Proof.HostStages.lean ====
/-
  The host operations of the kernel program between its launches, read as the reference's stages. The kernel
  program and the reference apply the same host operations to the same values: the index lists, the degrees and
  their inverse square roots, the gathers at the source list, the edge weights, the sums at the destination list,
  and the final mean over the graph ids. Each lemma here takes one stretch of those operations at ANY contents W of
  the buffers before it and at any float family, assumes of W only that the buffers the stretch reads hold the
  reference's stages (or an argument array), and concludes that a buffer the stretch writes holds the reference's
  stage for it. Nothing is computed: the two sides are the same operations of the same values, and the float
  family is left abstract so that no operation is opened.
-/
import proofs.«128890_j16561393893563_1_alg».proof.Proof.Gen.KernelIdeal.Launch
import proofs.«128890_j16561393893563_1_alg».proof.Proof.RefRead
import Idealize.ShloMosaic.Lib.StableHlo.Run

set_option maxRecDepth 16384

noncomputable section

namespace Cert.HostStages

open Idealize.ShloMosaic Idealize.ShloMosaic.TcCoe Idealize.SL.Sem Idealize.ShloMosaic.StableHlo
open Cert.KernelIdeal Cert.KernelIdeal.Gen
open Cert.ReferenceIdeal.ReadP

variable {F : FTy → Type} [FloatOps F]
variable (W : Valuation τ sig (Elt F))
variable (x0 : (⟨Cert.ReferenceIdeal.S100000x5, .f32⟩ : BufTy).Contents (Elt F))
  (x1 : (⟨Cert.ReferenceIdeal.S2x3200000, .i32⟩ : BufTy).Contents (Elt F))
  (x2 : (⟨Cert.ReferenceIdeal.S100000, .i32⟩ : BufTy).Contents (Elt F))
  (x3 : (⟨Cert.ReferenceIdeal.S5x30, .f32⟩ : BufTy).Contents (Elt F))
  (x4 : (⟨Cert.ReferenceIdeal.S30, .f32⟩ : BufTy).Contents (Elt F))
  (x5 : (⟨Cert.ReferenceIdeal.S30x8, .f32⟩ : BufTy).Contents (Elt F))
  (x6 : (⟨Cert.ReferenceIdeal.S8, .f32⟩ : BufTy).Contents (Elt F))

/-- The values of the operations that feed a joined list are read back one rewrite at a time: the one-pass
    reading does not look inside the list of the pieces joined. -/
macro "results_inside" : tactic =>
  `(tactic| repeat (first
     | rw [nullary_result] | rw [unary_result] | rw [binary_result] | rw [ternary_result] | rw [reshape_result]
     | (rw [nullary_result_ne]; rotate_left; decide)
     | (rw [unary_result_ne]; rotate_left; decide)
     | (rw [binary_result_ne]; rotate_left; decide)
     | (rw [ternary_result_ne]; rotate_left; decide)
     | (rw [reshape_result_ne]; rotate_left; decide)))

/-! ## Before the first launch: the index lists and the inverse square roots of the degrees -/

/-- The source list: the edge list's first row followed by 0 … 99999. -/
theorem sources (e1 : W (Proc.devRef .tc main_arg1) = x1) :
    after hostOps0_1 (after hostOps0 W) (Proc.devRef .tc main_v3) = val_main_v3 (F := F) x1 := by
  after_results
  rw [e1]
  rfl

/-- The destination list: the edge list's second row followed by 0 … 99999. -/
theorem destinations (e1 : W (Proc.devRef .tc main_arg1) = x1) :
    after hostOps0_1 (after hostOps0 W) (Proc.devRef .tc main_v6) = val_main_v6 (F := F) x1 := by
  after_results
  rw [e1]
  rfl

set_option maxHeartbeats 1000000 in
/-- The inverse square roots of the positive degrees (zero where the degree is not positive). -/
theorem invSqrtDeg (e1 : W (Proc.devRef .tc main_arg1) = x1) :
    after hostOps0_1 (after hostOps0 W) (Proc.devRef .tc main_v15) = val_main_v16 (F := F) x1 := by
  after_results_simp
  results_inside
  rw [e1]
  try simp only [TRef.ofBuf, TRef.toBuf, cast_eq]
  rfl

/-! ## Between the first projection and the first edge scaling -/

/-- The projected features gathered at the source list. -/
theorem gathered30 (e16 : W (Proc.devRef .tc main_v16) = val_main_v7 (F := F) x0 x3)
    (e3 : W (Proc.devRef .tc main_v3) = val_main_v3 (F := F) x1) :
    after hostOps1 W (Proc.devRef .tc main_v39) = val_main_v38 (F := F) x0 x1 x3 := by
  after_results_simp
  rw [e16, e3]
  rfl

set_option maxHeartbeats 1000000 in
/-- The edge weights as one column: the weight list, the product of the two gathered inverse square roots, laid
    out with one entry per row. -/
theorem weights30 (e15 : W (Proc.devRef .tc main_v15) = val_main_v16 (F := F) x1)
    (e3 : W (Proc.devRef .tc main_v3) = val_main_v3 (F := F) x1)
    (e6 : W (Proc.devRef .tc main_v6) = val_main_v6 (F := F) x1) :
    after hostOps1 W (Proc.devRef .tc main_v32) = shapeCast S3300000x1 (val_main_v31 (F := F) x1) shapeCasts_S3300000_S3300000x1 := by
  after_results_simp
  rw [e15, e3, e6]
  rfl

/-! ## Between the first edge scaling and the first bias -/

/-- The scaled features added up at the destination list. -/
theorem aggregated30 (e40 : W (Proc.devRef .tc main_v40) = val_main_v41 (F := F) x0 x1 x3)
    (e6 : W (Proc.devRef .tc main_v6) = val_main_v6 (F := F) x1) :
    after hostOps2 W (Proc.devRef .tc main_v43) = val_main_v44 (F := F) x0 x1 x3 := by
  after_results_simp
  rw [e40, e6]
  rfl

/-- The first bias laid out as one row. -/
theorem biasRow30 (e4 : W (Proc.devRef .tc main_arg4) = x4) :
    after hostOps2 W (Proc.devRef .tc main_v44) = shapeCast S1x30 x4 shapeCasts_S30_S1x30 := by
  after_results_simp
  rw [e4]
  rfl

/-! ## Between the second projection and the second edge scaling -/

/-- The second projection gathered at the source list. -/
theorem gathered8 (e46 : W (Proc.devRef .tc main_v46) = val_main_v49 (F := F) x0 x1 x3 x4 x5)
    (e3 : W (Proc.devRef .tc main_v3) = val_main_v3 (F := F) x1) :
    after hostOps4 W (Proc.devRef .tc main_v69) = val_main_v80 (F := F) x0 x1 x3 x4 x5 := by
  after_results_simp
  rw [e46, e3]
  rfl

set_option maxHeartbeats 1000000 in
/-- The edge weights as one column, again. The kernel program gathers from the inverse square roots it computed
    once; the reference computes them a second time by the same operations of the same destination list. -/
theorem weights8 (e15 : W (Proc.devRef .tc main_v15) = val_main_v16 (F := F) x1)
    (e3 : W (Proc.devRef .tc main_v3) = val_main_v3 (F := F) x1)
    (e6 : W (Proc.devRef .tc main_v6) = val_main_v6 (F := F) x1) :
    after hostOps4 W (Proc.devRef .tc main_v62) = shapeCast S3300000x1 (val_main_v73 (F := F) x1) shapeCasts_S3300000_S3300000x1 := by
  after_results_simp
  rw [e15, e3, e6]
  rfl

/-! ## Between the second edge scaling and the second bias -/

/-- The scaled features added up at the destination list. -/
theorem aggregated8 (e70 : W (Proc.devRef .tc main_v70) = val_main_v83 (F := F) x0 x1 x3 x4 x5)
    (e6 : W (Proc.devRef .tc main_v6) = val_main_v6 (F := F) x1) :
    after hostOps5 W (Proc.devRef .tc main_v73) = val_main_v86 (F := F) x0 x1 x3 x4 x5 := by
  after_results_simp
  rw [e70, e6]
  rfl

/-- The second bias laid out as one row. -/
theorem biasRow8 (e6a : W (Proc.devRef .tc main_arg6) = x6) :
    after hostOps5 W (Proc.devRef .tc main_v74) = shapeCast S1x8 x6 shapeCasts_S8_S1x8 := by
  after_results_simp
  rw [e6a]
  rfl

/-! ## After the last launch: the mean over each graph -/

set_option maxHeartbeats 1000000 in
/-- The node outputs added up per graph id, divided by the larger of the graph's node count and one. -/
theorem pooled (e75 : W (Proc.devRef .tc main_v75) = val_main_v89 (F := F) x0 x1 x3 x4 x5 x6)
    (e2 : W (Proc.devRef .tc main_arg2) = x2) :
    after hostOps6 W (Proc.devRef .tc main_v87) = val_main_v101 (F := F) x0 x1 x2 x3 x4 x5 x6 := by
  after_results_simp
  rw [e75, e2]
  rfl

/-! ## What a stretch does not write, it keeps -/

theorem keep0_arg0 : after hostOps0_1 (after hostOps0 W) (Proc.devRef .tc main_arg0) = W (Proc.devRef .tc main_arg0) := by after_results_simp
theorem keep0_arg2 : after hostOps0_1 (after hostOps0 W) (Proc.devRef .tc main_arg2) = W (Proc.devRef .tc main_arg2) := by after_results_simp
theorem keep0_arg3 : after hostOps0_1 (after hostOps0 W) (Proc.devRef .tc main_arg3) = W (Proc.devRef .tc main_arg3) := by after_results_simp
theorem keep0_arg4 : after hostOps0_1 (after hostOps0 W) (Proc.devRef .tc main_arg4) = W (Proc.devRef .tc main_arg4) := by after_results_simp
theorem keep0_arg5 : after hostOps0_1 (after hostOps0 W) (Proc.devRef .tc main_arg5) = W (Proc.devRef .tc main_arg5) := by after_results_simp
theorem keep0_arg6 : after hostOps0_1 (after hostOps0 W) (Proc.devRef .tc main_arg6) = W (Proc.devRef .tc main_arg6) := by after_results_simp
theorem keep1_v3 : after hostOps1 W (Proc.devRef .tc main_v3) = W (Proc.devRef .tc main_v3) := by after_results_simp
theorem keep1_v6 : after hostOps1 W (Proc.devRef .tc main_v6) = W (Proc.devRef .tc main_v6) := by after_results_simp
theorem keep1_v15 : after hostOps1 W (Proc.devRef .tc main_v15) = W (Proc.devRef .tc main_v15) := by after_results_simp
theorem keep1_arg2 : after hostOps1 W (Proc.devRef .tc main_arg2) = W (Proc.devRef .tc main_arg2) := by after_results_simp
theorem keep1_arg4 : after hostOps1 W (Proc.devRef .tc main_arg4) = W (Proc.devRef .tc main_arg4) := by after_results_simp
theorem keep1_arg5 : after hostOps1 W (Proc.devRef .tc main_arg5) = W (Proc.devRef .tc main_arg5) := by after_results_simp
theorem keep1_arg6 : after hostOps1 W (Proc.devRef .tc main_arg6) = W (Proc.devRef .tc main_arg6) := by after_results_simp
theorem keep2_v3 : after hostOps2 W (Proc.devRef .tc main_v3) = W (Proc.devRef .tc main_v3) := by after_results_simp
theorem keep2_v6 : after hostOps2 W (Proc.devRef .tc main_v6) = W (Proc.devRef .tc main_v6) := by after_results_simp
theorem keep2_v15 : after hostOps2 W (Proc.devRef .tc main_v15) = W (Proc.devRef .tc main_v15) := by after_results_simp
theorem keep2_arg2 : after hostOps2 W (Proc.devRef .tc main_arg2) = W (Proc.devRef .tc main_arg2) := by after_results_simp
theorem keep2_arg5 : after hostOps2 W (Proc.devRef .tc main_arg5) = W (Proc.devRef .tc main_arg5) := by after_results_simp
theorem keep2_arg6 : after hostOps2 W (Proc.devRef .tc main_arg6) = W (Proc.devRef .tc main_arg6) := by after_results_simp
theorem keep4_v6 : after hostOps4 W (Proc.devRef .tc main_v6) = W (Proc.devRef .tc main_v6) := by after_results_simp
theorem keep4_arg2 : after hostOps4 W (Proc.devRef .tc main_arg2) = W (Proc.devRef .tc main_arg2) := by after_results_simp
theorem keep4_arg6 : after hostOps4 W (Proc.devRef .tc main_arg6) = W (Proc.devRef .tc main_arg6) := by after_results_simp
theorem keep5_arg2 : after hostOps5 W (Proc.devRef .tc main_arg2) = W (Proc.devRef .tc main_arg2) := by after_results_simp

end Cert.HostStages

end
-- ==== Proof.EdgeScale30.lean ====
/-
  The first edge-scaling launch. Its grid has 330 points; point t takes rows 10000·t … 10000·t + 9999 of the
  gathered feature array (3300000 rows, 30 columns), the same rows of the one-column array of edge weights, and
  writes back those rows of the result: every entry of row e multiplied by the e-th weight. The 330 row blocks
  tile the 3300000 rows, so after the launch the whole result array is that one function of the two input arrays,
  whatever the float family and whatever the arrays held when the launch began.
-/
import proofs.«128890_j16561393893563_1_alg».proof.Proof.Gen.KernelIdeal.Frame
import Idealize.ShloMosaic.Lib.Pipeline.Value
import Idealize.ShloMosaic.Lib.ValueIdx

set_option maxRecDepth 16384

noncomputable section

namespace Cert.KernelIdeal.EdgeScale30

open Idealize.ShloMosaic Idealize.ShloMosaic.TcCoe Idealize.SL.Sem
open Cert.KernelIdeal Cert.KernelIdeal.Gen
open Idealize.ShloMosaic.Pipeline (Dat)

variable {F : FTy → Type} [FloatOps F]
variable (V : (c : Dev nD) → (b : Ref sig .tc) → Buf (Elt F) ((c : Thread nD τ).loc b))

/-- Every access of the body starts at the block's origin. -/
theorem origin : (![0, 0] : Fin 2 → Nat) = fun _ => 0 := funext fun a => by fin_cases a <;> rfl

/-- The weight that belongs to an entry of the feature array: the one in its row. -/
abbrev weightOf (i : S3300000x30.Idx) : S3300000x1.Idx := fun a => match a with
  | ⟨0, _⟩ => ⟨(i 0).val, (i 0).isLt⟩
  | ⟨1, _⟩ => ⟨0, Nat.one_pos⟩

/-- The same inside one block of 10000 rows. -/
abbrev weightIn (j : S10000x30.Idx) : S10000x1.Idx := fun a => match a with
  | ⟨0, _⟩ => ⟨(j 0).val, (j 0).isLt⟩
  | ⟨1, _⟩ => ⟨0, Nat.one_pos⟩

/-- The launch's result as one function of its two input arrays: entry (e, f) is feature (e, f) times weight e. -/
abbrev rowScaled (g : S3300000x30.Idx → Elt F .f32) (n : S3300000x1.Idx → Elt F .f32) : S3300000x30.Idx → Elt F .f32 :=
  fun i => FloatOps.mulf (g i) (n (weightOf i))

/-- What the body stores, read at an entry of the block: the loaded feature times the loaded weight of its row
    (the two casts are to the shapes the values already have; the weight column is spread along the 30 columns). -/
theorem stored_at (x0 : Vec F S10000x30 .f32) (x1 : Vec F S10000x1 .f32) (j : S10000x30.Idx) :
    k1_pay1 x0 x1 j = FloatOps.mulf (x0 j) (x1 (weightIn j)) := by
  unfold k1_pay1
  rw [shapeCast_self, shapeCast_self]
  show FloatOps.mulf (x0 j) (broadcastTo S10000x30 x1 _ j) = _
  rw [broadcastTo_apply x1 _ j (weightIn j) (fun a => match a with
    | ⟨0, _⟩ => by show (j 0).val = if (10000 : Nat) = 1 then 0 else (j 0).val; rw [if_neg (by decide)]
    | ⟨1, _⟩ => by show 0 = if (1 : Nat) = 1 then 0 else (j 1).val; rw [if_pos rfl])]

/-- The printed index maps over the 330 points: all three windows sit on row block t, column block 0. -/
theorem blocks_at : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point t writes back is block t of the scaled array. -/
theorem flushed_eq (c : Dev nD) (t : Fin cfg1.N) :
    (dat1 V c).flushed 2 t = ((cfg1.win 2).blk t).view.read (Elt F) (rowScaled (V c main_v39) (V c main_v32)) := by
  show (cfg1.win 2).cut (grid1.coords t) ((dat1 V c).after 2 t) = _
  rw [after1_2]
  unfold out1_2
  rw [View.canon_unit_zero origin]
  simp only [View.ld_unit_zero (S := S10000x30) origin, View.ld_unit_zero (S := S10000x1) origin]
  obtain ⟨e0, e1, e2, e3, e4, e5⟩ := blocks_at t
  funext j
  refine (stored_at _ _ j).trans ?_
  show FloatOps.mulf (V c main_v39 (((cfg1.win 0).blk t).view.emb j)) (V c main_v32 (((cfg1.win 1).blk t).view.emb (weightIn j)))
      = FloatOps.mulf (V c main_v39 (((cfg1.win 2).blk t).view.emb j)) (V c main_v32 (weightOf (((cfg1.win 2).blk t).view.emb j)))
  have h0 : ((cfg1.win 0).blk t).view.emb j = ((cfg1.win 2).blk t).view.emb j := by
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 30 + 1 * (j 1).val = win1_2.index t (1 : Fin 2) * 30 + 1 * (j 1).val; omega
  have h1 : ((cfg1.win 1).blk t).view.emb (weightIn j) = weightOf (((cfg1.win 2).blk t).view.emb j) := by
    funext a; apply Fin.ext
    match a with
    | ⟨0, _⟩ => show win1_1.index t (0 : Fin 2) * 10000 + 1 * (j 0).val = win1_2.index t (0 : Fin 2) * 10000 + 1 * (j 0).val; omega
    | ⟨1, _⟩ => show win1_1.index t (1 : Fin 2) * 1 + 1 * 0 = 0; omega
  rw [h0, h1]

/-- An entry of the array lies in point t's block iff each coordinate lies in the block's range on its axis. -/
theorem mem_blk (t : Fin cfg1.N) (i : S3300000x30.Idx) :
    i ∈ ((cfg1.win 2).blk t).view.set ↔ ∀ a : Fin 2, win1_2.index t a * S10000x30.size a ≤ (i a).val ∧ (i a).val < win1_2.index t a * S10000x30.size a + S10000x30.size a := by
  show i ∈ ((View.whole main_v40).slice (win1_2.rect t)).set ↔ _
  rw [View.set_slice_whole, Rect.mem_set_unit]
  exact Iff.rfl

/-- Every entry of the result array is written back by some point: row e by point e / 10000. -/
theorem covered (i : S3300000x30.Idx) :
    ∃ t : Fin cfg1.N, (cfg1.win 2).flush t = true ∧ i ∈ ((cfg1.win 2).blk t).view.set := by
  have hi0 : (i 0).val < 3300000 := (i 0).isLt
  have hi1 : (i 1).val < 30 := (i 1).isLt
  have ht : (i 0).val / 10000 < 330 := by omega
  refine ⟨⟨(i 0).val / 10000, ht⟩, flush1_2 _, ?_⟩
  rw [mem_blk]
  obtain ⟨e0, e1, e2, e3, e4, e5⟩ := blocks_at ⟨(i 0).val / 10000, ht⟩
  have e4' : win1_2.index ⟨(i 0).val / 10000, ht⟩ (0 : Fin 2) = (i 0).val / 10000 := e4
  intro a
  match a with
  | ⟨0, _⟩ => show win1_2.index ⟨(i 0).val / 10000, ht⟩ (0 : Fin 2) * 10000 ≤ (i 0).val ∧ (i 0).val < win1_2.index ⟨(i 0).val / 10000, ht⟩ (0 : Fin 2) * 10000 + 10000; omega
  | ⟨1, _⟩ => show win1_2.index ⟨(i 0).val / 10000, ht⟩ (1 : Fin 2) * 30 ≤ (i 1).val ∧ (i 1).val < win1_2.index ⟨(i 0).val / 10000, ht⟩ (1 : Fin 2) * 30 + 30; omega

/-- After the launch the result array is the scaled array of what the two input arrays held when it began. -/
theorem final (c : Dev nD) : (dat1 V c).arrAt 2 cfg1.N = rowScaled (V c main_v39) (V c main_v32) :=
  (dat1 V c).arrAt_eq_of_cover 2 _ (fun t _ => flushed_eq V c t) covered

end Cert.KernelIdeal.EdgeScale30

end
-- ==== Proof.EdgeScale8.lean ====
/-
  The second edge-scaling launch. Its grid has 330 points; point t takes rows 10000·t … 10000·t + 9999 of the
  gathered feature array (3300000 rows, 8 columns), the same rows of the one-column array of edge weights, and
  writes back those rows of the result: every entry of row e multiplied by the e-th weight. The 330 row blocks
  tile the 3300000 rows, so after the launch the whole result array is that one function of the two input arrays,
  whatever the float family and whatever the arrays held when the launch began.
-/
import proofs.«128890_j16561393893563_1_alg».proof.Proof.Gen.KernelIdeal.Frame
import Idealize.ShloMosaic.Lib.Pipeline.Value
import Idealize.ShloMosaic.Lib.ValueIdx

set_option maxRecDepth 16384

noncomputable section

namespace Cert.KernelIdeal.EdgeScale8

open Idealize.ShloMosaic Idealize.ShloMosaic.TcCoe Idealize.SL.Sem
open Cert.KernelIdeal Cert.KernelIdeal.Gen
open Idealize.ShloMosaic.Pipeline (Dat)

variable {F : FTy → Type} [FloatOps F]
variable (V : (c : Dev nD) → (b : Ref sig .tc) → Buf (Elt F) ((c : Thread nD τ).loc b))

/-- Every access of the body starts at the block's origin. -/
theorem origin : (![0, 0] : Fin 2 → Nat) = fun _ => 0 := funext fun a => by fin_cases a <;> rfl

/-- The weight that belongs to an entry of the feature array: the one in its row. -/
abbrev weightOf (i : S3300000x8.Idx) : S3300000x1.Idx := fun a => match a with
  | ⟨0, _⟩ => ⟨(i 0).val, (i 0).isLt⟩
  | ⟨1, _⟩ => ⟨0, Nat.one_pos⟩

/-- The same inside one block of 10000 rows. -/
abbrev weightIn (j : S10000x8.Idx) : S10000x1.Idx := fun a => match a with
  | ⟨0, _⟩ => ⟨(j 0).val, (j 0).isLt⟩
  | ⟨1, _⟩ => ⟨0, Nat.one_pos⟩

/-- The launch's result as one function of its two input arrays: entry (e, f) is feature (e, f) times weight e. -/
abbrev rowScaled (g : S3300000x8.Idx → Elt F .f32) (n : S3300000x1.Idx → Elt F .f32) : S3300000x8.Idx → Elt F .f32 :=
  fun i => FloatOps.mulf (g i) (n (weightOf i))

/-- What the body stores, read at an entry of the block: the loaded feature times the loaded weight of its row
    (the two casts are to the shapes the values already have; the weight column is spread along the 8 columns). -/
theorem stored_at (x0 : Vec F S10000x8 .f32) (x1 : Vec F S10000x1 .f32) (j : S10000x8.Idx) :
    k4_pay1 x0 x1 j = FloatOps.mulf (x0 j) (x1 (weightIn j)) := by
  unfold k4_pay1
  rw [shapeCast_self, shapeCast_self]
  show FloatOps.mulf (x0 j) (broadcastTo S10000x8 x1 _ j) = _
  rw [broadcastTo_apply x1 _ j (weightIn j) (fun a => match a with
    | ⟨0, _⟩ => by show (j 0).val = if (10000 : Nat) = 1 then 0 else (j 0).val; rw [if_neg (by decide)]
    | ⟨1, _⟩ => by show 0 = if (1 : Nat) = 1 then 0 else (j 1).val; rw [if_pos rfl])]

/-- The printed index maps over the 330 points: all three windows sit on row block t, column block 0. -/
theorem blocks_at : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- What point t writes back is block t of the scaled array. -/
theorem flushed_eq (c : Dev nD) (t : Fin cfg4.N) :
    (dat4 V c).flushed 2 t = ((cfg4.win 2).blk t).view.read (Elt F) (rowScaled (V c main_v69) (V c main_v62)) := by
  show (cfg4.win 2).cut (grid4.coords t) ((dat4 V c).after 2 t) = _
  rw [after4_2]
  unfold out4_2
  rw [View.canon_unit_zero origin]
  simp only [View.ld_unit_zero (S := S10000x8) origin, View.ld_unit_zero (S := S10000x1) origin]
  obtain ⟨e0, e1, e2, e3, e4, e5⟩ := blocks_at t
  funext j
  refine (stored_at _ _ j).trans ?_
  show FloatOps.mulf (V c main_v69 (((cfg4.win 0).blk t).view.emb j)) (V c main_v62 (((cfg4.win 1).blk t).view.emb (weightIn j)))
      = FloatOps.mulf (V c main_v69 (((cfg4.win 2).blk t).view.emb j)) (V c main_v62 (weightOf (((cfg4.win 2).blk t).view.emb j)))
  have h0 : ((cfg4.win 0).blk t).view.emb j = ((cfg4.win 2).blk t).view.emb j := by
    funext a; apply Fin.ext
    match a with
    | ⟨0, _⟩ => show win4_0.index t (0 : Fin 2) * 10000 + 1 * (j 0).val = win4_2.index t (0 : Fin 2) * 10000 + 1 * (j 0).val; omega
    | ⟨1, _⟩ => show win4_0.index t (1 : Fin 2) * 8 + 1 * (j 1).val = win4_2.index t (1 : Fin 2) * 8 + 1 * (j 1).val; omega
  have h1 : ((cfg4.win 1).blk t).view.emb (weightIn j) = weightOf (((cfg4.win 2).blk t).view.emb j) := by
    funext a; apply Fin.ext
    match a with
    | ⟨0, _⟩ => show win4_1.index t (0 : Fin 2) * 10000 + 1 * (j 0).val = win4_2.index t (0 : Fin 2) * 10000 + 1 * (j 0).val; omega
    | ⟨1, _⟩ => show win4_1.index t (1 : Fin 2) * 1 + 1 * 0 = 0; omega
  rw [h0, h1]

/-- An entry of the array lies in point t's block iff each coordinate lies in the block's range on its axis. -/
theorem mem_blk (t : Fin cfg4.N) (i : S3300000x8.Idx) :
    i ∈ ((cfg4.win 2).blk t).view.set ↔ ∀ a : Fin 2, win4_2.index t a * S10000x8.size a ≤ (i a).val ∧ (i a).val < win4_2.index t a * S10000x8.size a + S10000x8.size a := by
  show i ∈ ((View.whole main_v70).slice (win4_2.rect t)).set ↔ _
  rw [View.set_slice_whole, Rect.mem_set_unit]
  exact Iff.rfl

/-- Every entry of the result array is written back by some point: row e by point e / 10000. -/
theorem covered (i : S3300000x8.Idx) :
    ∃ t : Fin cfg4.N, (cfg4.win 2).flush t = true ∧ i ∈ ((cfg4.win 2).blk t).view.set := by
  have hi0 : (i 0).val < 3300000 := (i 0).isLt
  have hi1 : (i 1).val < 8 := (i 1).isLt
  have ht : (i 0).val / 10000 < 330 := by omega
  refine ⟨⟨(i 0).val / 10000, ht⟩, flush4_2 _, ?_⟩
  rw [mem_blk]
  obtain ⟨e0, e1, e2, e3, e4, e5⟩ := blocks_at ⟨(i 0).val / 10000, ht⟩
  have e4' : win4_2.index ⟨(i 0).val / 10000, ht⟩ (0 : Fin 2) = (i 0).val / 10000 := e4
  intro a
  match a with
  | ⟨0, _⟩ => show win4_2.index ⟨(i 0).val / 10000, ht⟩ (0 : Fin 2) * 10000 ≤ (i 0).val ∧ (i 0).val < win4_2.index ⟨(i 0).val / 10000, ht⟩ (0 : Fin 2) * 10000 + 10000; omega
  | ⟨1, _⟩ => show win4_2.index ⟨(i 0).val / 10000, ht⟩ (1 : Fin 2) * 8 ≤ (i 1).val ∧ (i 1).val < win4_2.index ⟨(i 0).val / 10000, ht⟩ (1 : Fin 2) * 8 + 8; omega

/-- After the launch the result array is the scaled array of what the two input arrays held when it began. -/
theorem final (c : Dev nD) : (dat4 V c).arrAt 2 cfg4.N = rowScaled (V c main_v69) (V c main_v62) :=
  (dat4 V c).arrAt_eq_of_cover 2 _ (fun t _ => flushed_eq V c t) covered

end Cert.KernelIdeal.EdgeScale8

end
-- ==== Proof.BiasRelu30.lean ====
/-
  The first bias launch. Its grid has 10 points; point t takes rows 10000·t … 10000·t + 9999 of the aggregated
  array (100000 rows, 30 columns) and, at every point, the one row of 30 biases, and writes back those rows of the
  result: entry (n, f) plus bias f, then the larger of that and zero. The 10 row blocks tile the 100000 rows, so
  after the launch the whole result array is that one function of the two input arrays, whatever the float family
  and whatever the arrays held when the launch began.
-/
import proofs.«128890_j16561393893563_1_alg».proof.Proof.Gen.KernelIdeal.Frame
import Idealize.ShloMosaic.Lib.Pipeline.Value
import Idealize.ShloMosaic.Lib.ValueIdx

set_option maxRecDepth 16384

noncomputable section

namespace Cert.KernelIdeal.BiasRelu30

open Idealize.ShloMosaic Idealize.ShloMosaic.TcCoe Idealize.SL.Sem
open Cert.KernelIdeal Cert.KernelIdeal.Gen
open Idealize.ShloMosaic.Pipeline (Dat)

variable {F : FTy → Type} [FloatOps F]
variable (V : (c : Dev nD) → (b : Ref sig .tc) → Buf (Elt F) ((c : Thread nD τ).loc b))

/-- Every access of the body starts at the block's origin. -/
theorem origin : (![0, 0] : Fin 2 → Nat) = fun _ => 0 := funext fun a => by fin_cases a <;> rfl

/-- The bias that belongs to an entry of the aggregated array: the one in its column. -/
abbrev biasOf (i : S100000x30.Idx) : S1x30.Idx := fun a => match a with
  | ⟨0, _⟩ => ⟨0, Nat.one_pos⟩
  | ⟨1, _⟩ => ⟨(i 1).val, (i 1).isLt⟩

/-- The same inside one block of 10000 rows. -/
abbrev biasIn (j : S10000x30.Idx) : S1x30.Idx := fun a => match a with
  | ⟨0, _⟩ => ⟨0, Nat.one_pos⟩
  | ⟨1, _⟩ => ⟨(j 1).val, (j 1).isLt⟩

/-- The launch's result as one function of its two input arrays: entry (n, f) is the larger of
    aggregated (n, f) + bias f and zero. -/
abbrev biased (agg : S100000x30.Idx → Elt F .f32) (b : S1x30.Idx → Elt F .f32) : S100000x30.Idx → Elt F .f32 :=
  fun i => FloatOps.maximumf (FloatOps.addf (agg i) (b (biasOf i))) (Scalar.ofBits .f32 0x00000000#32)

/-- What the body stores, read at an entry of the block (the two casts are to the shapes the values already have;
    the bias row is spread down the 10000 rows; the zero is spread over the block). -/
theorem stored_at (x0 : Vec F S10000x30 .f32) (x1 : Vec F S1x30 .f32) (j : S10000x30.Idx) :
    k2_pay1 x0 x1 j = FloatOps.maximumf (FloatOps.addf (x0 j) (x1 (biasIn j))) (Scalar.ofBits .f32 0x00000000#32) := by
  unfold k2_pay1
  rw [shapeCast_self, shapeCast_self]
  show FloatOps.maximumf (FloatOps.addf (x0 j) (broadcastTo S10000x30 x1 _ j)) (Scalar.ofBits .f32 0x00000000#32) = _
  rw [broadcastTo_apply x1 _ j (biasIn j) (fun a => match a with
    | ⟨0, _⟩ => by show 0 = if (1 : Nat) = 1 then 0 else (j 0).val; rw [if_pos rfl]
    | ⟨1, _⟩ => by show (j 1).val = if (30 : Nat) = 1 then 0 else (j 1).val; rw [if_neg (by decide)])]

/-- The printed index maps over the 10 points: the aggregated and result windows sit on row block t, the bias
    window on its one block. -/
theorem blocks_at : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the biased array. -/
theorem flushed_eq (c : Dev nD) (t : Fin cfg2.N) :
    (dat2 V c).flushed 2 t = ((cfg2.win 2).blk t).view.read (Elt F) (biased (V c main_v43) (V c main_v44)) := by
  show (cfg2.win 2).cut (grid2.coords t) ((dat2 V c).after 2 t) = _
  rw [after2_2]
  unfold out2_2
  rw [View.canon_unit_zero origin]
  simp only [View.ld_unit_zero (S := S10000x30) origin, View.ld_unit_zero (S := S1x30) origin]
  obtain ⟨e0, e1, e2, e3, e4, e5⟩ := blocks_at t
  funext j
  refine (stored_at _ _ j).trans ?_
  show FloatOps.maximumf (FloatOps.addf (V c main_v43 (((cfg2.win 0).blk t).view.emb j)) (V c main_v44 (((cfg2.win 1).blk t).view.emb (biasIn j)))) (Scalar.ofBits .f32 0x00000000#32)
      = FloatOps.maximumf (FloatOps.addf (V c main_v43 (((cfg2.win 2).blk t).view.emb j)) (V c main_v44 (biasOf (((cfg2.win 2).blk t).view.emb j)))) (Scalar.ofBits .f32 0x00000000#32)
  have h0 : ((cfg2.win 0).blk t).view.emb j = ((cfg2.win 2).blk t).view.emb j := by
    funext a; apply Fin.ext
    match a with
    | ⟨0, _⟩ => show win2_0.index t (0 : Fin 2) * 10000 + 1 * (j 0).val = win2_2.index t (0 : Fin 2) * 10000 + 1 * (j 0).val; omega
    | ⟨1, _⟩ => show win2_0.index t (1 : Fin 2) * 30 + 1 * (j 1).val = win2_2.index t (1 : Fin 2) * 30 + 1 * (j 1).val; omega
  have h1 : ((cfg2.win 1).blk t).view.emb (biasIn j) = biasOf (((cfg2.win 2).blk t).view.emb j) := by
    funext a; apply Fin.ext
    match a with
    | ⟨0, _⟩ => show win2_1.index t (0 : Fin 2) * 1 + 1 * 0 = 0; omega
    | ⟨1, _⟩ => show win2_1.index t (1 : Fin 2) * 30 + 1 * (j 1).val = win2_2.index t (1 : Fin 2) * 30 + 1 * (j 1).val; omega
  rw [h0, h1]

/-- An entry of the array lies in point t's block iff each coordinate lies in the block's range on its axis. -/
theorem mem_blk (t : Fin cfg2.N) (i : S100000x30.Idx) :
    i ∈ ((cfg2.win 2).blk t).view.set ↔ ∀ a : Fin 2, win2_2.index t a * S10000x30.size a ≤ (i a).val ∧ (i a).val < win2_2.index t a * S10000x30.size a + S10000x30.size a := by
  show i ∈ ((View.whole main_v45).slice (win2_2.rect t)).set ↔ _
  rw [View.set_slice_whole, Rect.mem_set_unit]
  exact Iff.rfl

/-- Every entry of the result array is written back by some point: row n by point n / 10000. -/
theorem covered (i : S100000x30.Idx) :
    ∃ t : Fin cfg2.N, (cfg2.win 2).flush t = true ∧ i ∈ ((cfg2.win 2).blk t).view.set := by
  have hi0 : (i 0).val < 100000 := (i 0).isLt
  have hi1 : (i 1).val < 30 := (i 1).isLt
  have ht : (i 0).val / 10000 < 10 := by omega
  refine ⟨⟨(i 0).val / 10000, ht⟩, flush2_2 _, ?_⟩
  rw [mem_blk]
  obtain ⟨e0, e1, e2, e3, e4, e5⟩ := blocks_at ⟨(i 0).val / 10000, ht⟩
  have e4' : win2_2.index ⟨(i 0).val / 10000, ht⟩ (0 : Fin 2) = (i 0).val / 10000 := e4
  intro a
  match a with
  | ⟨0, _⟩ => show win2_2.index ⟨(i 0).val / 10000, ht⟩ (0 : Fin 2) * 10000 ≤ (i 0).val ∧ (i 0).val < win2_2.index ⟨(i 0).val / 10000, ht⟩ (0 : Fin 2) * 10000 + 10000; omega
  | ⟨1, _⟩ => show win2_2.index ⟨(i 0).val / 10000, ht⟩ (1 : Fin 2) * 30 ≤ (i 1).val ∧ (i 1).val < win2_2.index ⟨(i 0).val / 10000, ht⟩ (1 : Fin 2) * 30 + 30; omega

/-- After the launch the result array is the biased array of what the two input arrays held when it began. -/
theorem final (c : Dev nD) : (dat2 V c).arrAt 2 cfg2.N = biased (V c main_v43) (V c main_v44) :=
  (dat2 V c).arrAt_eq_of_cover 2 _ (fun t _ => flushed_eq V c t) covered

end Cert.KernelIdeal.BiasRelu30

end
-- ==== Proof.Bias8.lean ====
/-
  The second bias launch. Its grid has 10 points; point t takes rows 10000·t … 10000·t + 9999 of the aggregated
  array (100000 rows, 8 columns) and, at every point, the one row of 8 biases, and writes back those rows of the
  result: entry (n, f) plus bias f, with no maximum after it. The 10 row blocks tile the 100000 rows, so after the
  launch the whole result array is that one function of the two input arrays, whatever the float family and
  whatever the arrays held when the launch began.
-/
import proofs.«128890_j16561393893563_1_alg».proof.Proof.Gen.KernelIdeal.Frame
import Idealize.ShloMosaic.Lib.Pipeline.Value
import Idealize.ShloMosaic.Lib.ValueIdx

set_option maxRecDepth 16384

noncomputable section

namespace Cert.KernelIdeal.Bias8

open Idealize.ShloMosaic Idealize.ShloMosaic.TcCoe Idealize.SL.Sem
open Cert.KernelIdeal Cert.KernelIdeal.Gen
open Idealize.ShloMosaic.Pipeline (Dat)

variable {F : FTy → Type} [FloatOps F]
variable (V : (c : Dev nD) → (b : Ref sig .tc) → Buf (Elt F) ((c : Thread nD τ).loc b))

/-- Every access of the body starts at the block's origin. -/
theorem origin : (![0, 0] : Fin 2 → Nat) = fun _ => 0 := funext fun a => by fin_cases a <;> rfl

/-- The bias that belongs to an entry of the aggregated array: the one in its column. -/
abbrev biasOf (i : S100000x8.Idx) : S1x8.Idx := fun a => match a with
  | ⟨0, _⟩ => ⟨0, Nat.one_pos⟩
  | ⟨1, _⟩ => ⟨(i 1).val, (i 1).isLt⟩

/-- The same inside one block of 10000 rows. -/
abbrev biasIn (j : S10000x8.Idx) : S1x8.Idx := fun a => match a with
  | ⟨0, _⟩ => ⟨0, Nat.one_pos⟩
  | ⟨1, _⟩ => ⟨(j 1).val, (j 1).isLt⟩

/-- The launch's result as one function of its two input arrays: entry (n, f) is aggregated (n, f) + bias f. -/
abbrev biased (agg : S100000x8.Idx → Elt F .f32) (b : S1x8.Idx → Elt F .f32) : S100000x8.Idx → Elt F .f32 :=
  fun i => FloatOps.addf (agg i) (b (biasOf i))

/-- What the body stores, read at an entry of the block (the two casts are to the shapes the values already have;
    the bias row is spread down the 10000 rows). -/
theorem stored_at (x0 : Vec F S10000x8 .f32) (x1 : Vec F S1x8 .f32) (j : S10000x8.Idx) :
    k5_pay1 x0 x1 j = FloatOps.addf (x0 j) (x1 (biasIn j)) := by
  unfold k5_pay1
  rw [shapeCast_self, shapeCast_self]
  show FloatOps.addf (x0 j) (broadcastTo S10000x8 x1 _ j) = _
  rw [broadcastTo_apply x1 _ j (biasIn j) (fun a => match a with
    | ⟨0, _⟩ => by show 0 = if (1 : Nat) = 1 then 0 else (j 0).val; rw [if_pos rfl]
    | ⟨1, _⟩ => by show (j 1).val = if (8 : Nat) = 1 then 0 else (j 1).val; rw [if_neg (by decide)])]

/-- The printed index maps over the 10 points: the aggregated and result windows sit on row block t, the bias
    window on its one block. -/
theorem blocks_at : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What point t writes back is block t of the biased array. -/
theorem flushed_eq (c : Dev nD) (t : Fin cfg5.N) :
    (dat5 V c).flushed 2 t = ((cfg5.win 2).blk t).view.read (Elt F) (biased (V c main_v73) (V c main_v74)) := by
  show (cfg5.win 2).cut (grid5.coords t) ((dat5 V c).after 2 t) = _
  rw [after5_2]
  unfold out5_2
  rw [View.canon_unit_zero origin]
  simp only [View.ld_unit_zero (S := S10000x8) origin, View.ld_unit_zero (S := S1x8) origin]
  obtain ⟨e0, e1, e2, e3, e4, e5⟩ := blocks_at t
  funext j
  refine (stored_at _ _ j).trans ?_
  show FloatOps.addf (V c main_v73 (((cfg5.win 0).blk t).view.emb j)) (V c main_v74 (((cfg5.win 1).blk t).view.emb (biasIn j)))
      = FloatOps.addf (V c main_v73 (((cfg5.win 2).blk t).view.emb j)) (V c main_v74 (biasOf (((cfg5.win 2).blk t).view.emb j)))
  have h0 : ((cfg5.win 0).blk t).view.emb j = ((cfg5.win 2).blk t).view.emb j := by
    funext a; apply Fin.ext
    match a with
    | ⟨0, _⟩ => show win5_0.index t (0 : Fin 2) * 10000 + 1 * (j 0).val = win5_2.index t (0 : Fin 2) * 10000 + 1 * (j 0).val; omega
    | ⟨1, _⟩ => show win5_0.index t (1 : Fin 2) * 8 + 1 * (j 1).val = win5_2.index t (1 : Fin 2) * 8 + 1 * (j 1).val; omega
  have h1 : ((cfg5.win 1).blk t).view.emb (biasIn j) = biasOf (((cfg5.win 2).blk t).view.emb j) := by
    funext a; apply Fin.ext
    match a with
    | ⟨0, _⟩ => show win5_1.index t (0 : Fin 2) * 1 + 1 * 0 = 0; omega
    | ⟨1, _⟩ => show win5_1.index t (1 : Fin 2) * 8 + 1 * (j 1).val = win5_2.index t (1 : Fin 2) * 8 + 1 * (j 1).val; omega
  rw [h0, h1]

/-- An entry of the array lies in point t's block iff each coordinate lies in the block's range on its axis. -/
theorem mem_blk (t : Fin cfg5.N) (i : S100000x8.Idx) :
    i ∈ ((cfg5.win 2).blk t).view.set ↔ ∀ a : Fin 2, win5_2.index t a * S10000x8.size a ≤ (i a).val ∧ (i a).val < win5_2.index t a * S10000x8.size a + S10000x8.size a := by
  show i ∈ ((View.whole main_v75).slice (win5_2.rect t)).set ↔ _
  rw [View.set_slice_whole, Rect.mem_set_unit]
  exact Iff.rfl

/-- Every entry of the result array is written back by some point: row n by point n / 10000. -/
theorem covered (i : S100000x8.Idx) :
    ∃ t : Fin cfg5.N, (cfg5.win 2).flush t = true ∧ i ∈ ((cfg5.win 2).blk t).view.set := by
  have hi0 : (i 0).val < 100000 := (i 0).isLt
  have hi1 : (i 1).val < 8 := (i 1).isLt
  have ht : (i 0).val / 10000 < 10 := by omega
  refine ⟨⟨(i 0).val / 10000, ht⟩, flush5_2 _, ?_⟩
  rw [mem_blk]
  obtain ⟨e0, e1, e2, e3, e4, e5⟩ := blocks_at ⟨(i 0).val / 10000, ht⟩
  have e4' : win5_2.index ⟨(i 0).val / 10000, ht⟩ (0 : Fin 2) = (i 0).val / 10000 := e4
  intro a
  match a with
  | ⟨0, _⟩ => show win5_2.index ⟨(i 0).val / 10000, ht⟩ (0 : Fin 2) * 10000 ≤ (i 0).val ∧ (i 0).val < win5_2.index ⟨(i 0).val / 10000, ht⟩ (0 : Fin 2) * 10000 + 10000; omega
  | ⟨1, _⟩ => show win5_2.index ⟨(i 0).val / 10000, ht⟩ (1 : Fin 2) * 8 ≤ (i 1).val ∧ (i 1).val < win5_2.index ⟨(i 0).val / 10000, ht⟩ (1 : Fin 2) * 8 + 8; omega

/-- After the launch the result array is the biased array of what the two input arrays held when it began. -/
theorem final (c : Dev nD) : (dat5 V c).arrAt 2 cfg5.N = biased (V c main_v73) (V c main_v74) :=
  (dat5 V c).arrAt_eq_of_cover 2 _ (fun t _ => flushed_eq V c t) covered

end Cert.KernelIdeal.Bias8

end
-- ==== Proof.LibPlainDot.lean ====
/-
  A matrix product of an [R, K] operand by a [K, C] operand, contracted over the one shared axis (the
  dimension numbers lhs_contracting = [1], rhs_contracting = [0], no batch axes), read at an entry (p, q) on the
  extended reals: the plain sum over k of l(p, k) · r(k, q). Stated for ANY dimension-number record of that
  form, so that it serves every such product whatever the record's name and whatever R, K, C are.
-/
import Idealize.ShloMosaic.PureOps.Ideal.Laws
import Idealize.ShloMosaic.Lib.ValueIdx

noncomputable section

namespace Idealize.ShloMosaic.PlainDot

open Idealize.ShloMosaic Idealize.ShloMosaic.ValueIdx

variable {R K C : ℕ}

/-- The dimension numbers of a plain row-by-column product: the left operand's axis 1 is contracted with the right
    operand's axis 0; the left operand's axis 0 and the right operand's axis 1 survive, in that order; no batch axes. -/
structure IsPlain (d : DotDims ⟨2, ![R, K]⟩ ⟨2, ![K, C]⟩ ⟨2, ![R, C]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![R, K]⟩ ⟨2, ![K, C]⟩ ⟨2, ![R, C]⟩}

/-- A coordinate of an index depends on the axis' position only. -/
private theorem coord_congr {s : Shape} (j : s.Idx) (a b : Nat) (ha : a < s.rank) (hb : b < s.rank) (e : a = b) :
    (j ⟨a, ha⟩).val = (j ⟨b, hb⟩).val := by subst e; rfl

/-- The left operand's row is the result's row. -/
theorem lhs_row (h : IsPlain d) (j : (⟨2, ![R, C]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by simp [h.lb, h.ln])

/-- The right operand's column is the result's column. -/
theorem rhs_col (h : IsPlain d) (j : (⟨2, ![R, C]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by simp [h.lb, h.ln, h.rn])

theorem contr_rank (h : IsPlain d) : d.contr.rank = 1 := by
  rw [d.rank_contr, h.lc]; rfl

theorem contr_size (h : IsPlain d) : d.contr.size ⟨0, by rw [contr_rank h]; exact Nat.one_pos⟩ = K := by
  rw [d.size_contr 0 (by rw [h.lc]; exact Nat.one_pos)]
  simp [h.lc]

/-- The product read at (p, q): the sum over the contracted axis. -/
theorem sum_apply (h : IsPlain d) {φ₁ φ₂ : FTy} (l : FVec Ideal ⟨2, ![R, K]⟩ φ₁) (r : FVec Ideal ⟨2, ![K, C]⟩ φ₂)
    (p : Fin R) (q : Fin C) :
    (∑ k : d.contr.Idx, l (d.lhsIdx (ix2 p q) k) * r (d.rhsIdx (ix2 p q) k)) = ∑ k : Fin K, l (ix2 p k) * r (ix2 k q) := by
  rw [← Equiv.sum_comp (contrEquiv1 d K (contr_rank h) (contr_size h)).symm]
  refine Finset.sum_congr rfl fun k _ => ?_
  have hk := contrEquiv1_symm_val d K (contr_rank h) (contr_size h) k
  have el : d.lhsIdx (ix2 p q) ((contrEquiv1 d K (contr_rank h) (contr_size h)).symm k) = ix2 p k := funext fun a => Fin.ext (by
    match a with
    | ⟨0, _⟩ => exact lhs_row h _ _
    | ⟨1, _⟩ => exact (d.lhsIdx_val_of_single h.lc _ _).trans hk)
  have er : d.rhsIdx (ix2 p q) ((contrEquiv1 d K (contr_rank h) (contr_size h)).symm k) = ix2 k q := funext fun a => Fin.ext (by
    match a with
    | ⟨0, _⟩ => exact (d.rhsIdx_val_of_single h.rc _ _).trans hk
    | ⟨1, _⟩ => exact rhs_col h _ _)
  rw [el, er]

/-- A kernel's matrix product into a zero accumulator, read at (p, q). -/
theorem matmul_zero_apply (h : IsPlain d) {φ₁ φ₂ : FTy} (prec : Option ContractPrecision)
    (l : FVec Ideal ⟨2, ![R, K]⟩ φ₁) (r : FVec Ideal ⟨2, ![K, C]⟩ φ₂) (p : Fin R) (q : Fin C) :
    FloatOps.matmul d prec l r (constant ⟨2, ![R, C]⟩ .f32 0x00000000#32) (ix2 p q) = ∑ k : Fin K, l (ix2 p k) * r (ix2 k q) := by
  rw [Ideal.matmul_constant_zero_apply]
  exact sum_apply h l r p q

/-- The host's matrix product read at (p, q). -/
theorem dotGeneral_apply (h : IsPlain d) {φ₁ φ₂ : FTy} (prec : Option ContractPrecision) (sched : HostSchedule)
    (l : FVec Ideal ⟨2, ![R, K]⟩ φ₁) (r : FVec Ideal ⟨2, ![K, C]⟩ φ₂) (p : Fin R) (q : Fin C) :
    FloatOps.dotGeneral d prec sched l r (ix2 p q) = ∑ k : Fin K, l (ix2 p k) * r (ix2 k q) := by
  rw [Ideal.dotGeneral_apply]
  exact sum_apply h l r p q

end Idealize.ShloMosaic.PlainDot

end
-- ==== Proof.Project30.lean ====
/-
  The first projection launch, read on the extended reals. Its grid has 10 points; point t takes rows
  10000·t … 10000·t + 9999 of the node features (100000 rows, 5 columns) and, at every point, the whole 5-by-30
  weight matrix, and writes back those rows of the product. On the extended reals the two roundings to the
  half-width format are the identity and a product into a zero accumulator is the plain sum over the shared axis,
  so entry (n, f) of the block is the sum over k of feature (n, k) times weight (k, f). The 10 row blocks tile the
  100000 rows, so after the launch the whole result array is the matrix product of the two input arrays as the
  launch found them.
-/
import proofs.«128890_j16561393893563_1_alg».proof.Proof.Gen.KernelIdeal.Frame
import proofs.«128890_j16561393893563_1_alg».proof.Proof.LibPlainDot
import Idealize.ShloMosaic.Lib.Pipeline.Value
import Idealize.ShloMosaic.Lib.ValueIdx

set_option maxRecDepth 16384

noncomputable section

namespace Cert.KernelIdeal.Project30

open Idealize.ShloMosaic Idealize.ShloMosaic.TcCoe Idealize.SL.Sem Idealize.ShloMosaic.ValueIdx
open Cert.KernelIdeal Cert.KernelIdeal.Gen
open Idealize.ShloMosaic.Pipeline (Dat)

variable (V : (c : Dev nD) → (b : Ref sig .tc) → Buf (Elt Ideal) ((c : Thread nD τ).loc b))

/-- Every access of the body starts at the block's origin. -/
theorem origin : (![0, 0] : Fin 2 → Nat) = fun _ => 0 := funext fun a => by fin_cases a <;> rfl

/-- The launch's result as one function of its two input arrays: the matrix product, entry by entry. -/
abbrev product (x : S100000x5.Idx → EReal) (w : S5x30.Idx → EReal) : S100000x30.Idx → EReal :=
  fun i => ∑ k : Fin 5, x (ix2 (⟨(i 0).val, (i 0).isLt⟩ : Fin 100000) k) * w (ix2 k (⟨(i 1).val, (i 1).isLt⟩ : Fin 30))

/-- The two input arrays as the launch finds them, named at their own shapes (sums and products are taken of
    their entries). -/
abbrev feats (c : Dev nD) : S100000x5.Idx → EReal := V c main_arg0
abbrev weights (c : Dev nD) : S5x30.Idx → EReal := V c main_arg3

/-- The block's dimension numbers are those of a plain row-by-column product. -/
theorem plain : PlainDot.IsPlain (R := 10000) (K := 5) (C := 30) dot_S10000x5_S5x30_S10000x30_1_0_0_1_n_n :=
  ⟨rfl, rfl, rfl, rfl, rfl, rfl⟩

/-- What the body stores, read at entry (p, q) of the block: the sum over k of loaded feature (p, k) times loaded
    weight (k, q). -/
theorem stored_at (x0 : Vec Ideal S10000x5 .f32) (x1 : Vec Ideal S5x30 .f32) (p : Fin 10000) (q : Fin 30) :
    k0_pay1 x0 x1 (ix2 p q) = ∑ k : Fin 5, x0 (ix2 p k) * x1 (ix2 k q) := by
  unfold k0_pay1
  exact PlainDot.matmul_zero_apply plain none _ _ p q

/-- The printed index maps over the 10 points: the feature and result windows sit on row block t, the weight
    window on its one block. -/
theorem blocks_at : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product array. -/
theorem flushed_eq (c : Dev nD) (t : Fin cfg0.N) :
    (dat0 V c).flushed 2 t = ((cfg0.win 2).blk t).view.read (Elt Ideal) (product (feats V c) (weights V c)) := by
  show (cfg0.win 2).cut (grid0.coords t) ((dat0 V c).after 2 t) = _
  rw [after0_2]
  unfold out0_2
  rw [View.canon_unit_zero origin]
  simp only [View.ld_unit_zero (S := S10000x5) origin, View.ld_unit_zero (S := S5x30) origin]
  obtain ⟨e0, e1, e2, e3, e4, e5⟩ := blocks_at t
  funext j
  obtain ⟨p, q, rfl⟩ : ∃ (p : Fin 10000) (q : Fin 30), j = ix2 p q := ⟨j 0, j 1, eq_ix2 j⟩
  refine (stored_at _ _ p q).trans ?_
  show (∑ k : Fin 5, feats V c (((cfg0.win 0).blk t).view.emb (ix2 p k)) * weights V c (((cfg0.win 1).blk t).view.emb (ix2 k q)))
      = product (feats V c) (weights V c) (((cfg0.win 2).blk t).view.emb (ix2 p q))
  refine Finset.sum_congr rfl fun k _ => ?_
  have h0 : ((cfg0.win 0).blk t).view.emb (ix2 p k)
      = ix2 (⟨((((cfg0.win 2).blk t).view.emb (ix2 p q)) 0).val, ((((cfg0.win 2).blk t).view.emb (ix2 p q)) 0).isLt⟩ : Fin 100000) k := by
    funext a; apply Fin.ext
    match a with
    | ⟨0, _⟩ => show win0_0.index t (0 : Fin 2) * 10000 + 1 * p.val = win0_2.index t (0 : Fin 2) * 10000 + 1 * p.val; omega
    | ⟨1, _⟩ => show win0_0.index t (1 : Fin 2) * 5 + 1 * k.val = k.val; omega
  have h1 : ((cfg0.win 1).blk t).view.emb (ix2 k q)
      = ix2 k (⟨((((cfg0.win 2).blk t).view.emb (ix2 p q)) 1).val, ((((cfg0.win 2).blk t).view.emb (ix2 p q)) 1).isLt⟩ : Fin 30) := by
    funext a; apply Fin.ext
    match a with
    | ⟨0, _⟩ => show win0_1.index t (0 : Fin 2) * 5 + 1 * k.val = k.val; omega
    | ⟨1, _⟩ => show win0_1.index t (1 : Fin 2) * 30 + 1 * q.val = win0_2.index t (1 : Fin 2) * 30 + 1 * q.val; omega
  rw [h0, h1]

/-- An entry of the array lies in point t's block iff each coordinate lies in the block's range on its axis. -/
theorem mem_blk (t : Fin cfg0.N) (i : S100000x30.Idx) :
    i ∈ ((cfg0.win 2).blk t).view.set ↔ ∀ a : Fin 2, win0_2.index t a * S10000x30.size a ≤ (i a).val ∧ (i a).val < win0_2.index t a * S10000x30.size a + S10000x30.size a := by
  show i ∈ ((View.whole main_v16).slice (win0_2.rect t)).set ↔ _
  rw [View.set_slice_whole, Rect.mem_set_unit]
  exact Iff.rfl

/-- Every entry of the result array is written back by some point: row n by point n / 10000. -/
theorem covered (i : S100000x30.Idx) :
    ∃ t : Fin cfg0.N, (cfg0.win 2).flush t = true ∧ i ∈ ((cfg0.win 2).blk t).view.set := by
  have hi0 : (i 0).val < 100000 := (i 0).isLt
  have hi1 : (i 1).val < 30 := (i 1).isLt
  have ht : (i 0).val / 10000 < 10 := by omega
  refine ⟨⟨(i 0).val / 10000, ht⟩, flush0_2 _, ?_⟩
  rw [mem_blk]
  obtain ⟨e0, e1, e2, e3, e4, e5⟩ := blocks_at ⟨(i 0).val / 10000, ht⟩
  have e4' : win0_2.index ⟨(i 0).val / 10000, ht⟩ (0 : Fin 2) = (i 0).val / 10000 := e4
  intro a
  match a with
  | ⟨0, _⟩ => show win0_2.index ⟨(i 0).val / 10000, ht⟩ (0 : Fin 2) * 10000 ≤ (i 0).val ∧ (i 0).val < win0_2.index ⟨(i 0).val / 10000, ht⟩ (0 : Fin 2) * 10000 + 10000; omega
  | ⟨1, _⟩ => show win0_2.index ⟨(i 0).val / 10000, ht⟩ (1 : Fin 2) * 30 ≤ (i 1).val ∧ (i 1).val < win0_2.index ⟨(i 0).val / 10000, ht⟩ (1 : Fin 2) * 30 + 30; omega

/-- After the launch the result array is the matrix product of what the two input arrays held when it began. -/
theorem final (c : Dev nD) : (dat0 V c).arrAt 2 cfg0.N = product (feats V c) (weights V c) :=
  (dat0 V c).arrAt_eq_of_cover 2 _ (fun t _ => flushed_eq V c t) covered

end Cert.KernelIdeal.Project30

end
-- ==== Proof.Project8.lean ====
/-
  The second projection launch, read on the extended reals. Its grid has 10 points; point t takes rows
  10000·t … 10000·t + 9999 of the first layer's output (100000 rows, 30 columns) and, at every point, the whole
  30-by-8 weight matrix, and writes back those rows of the product. The loaded rows are first cast to the shape
  they already have; on the extended reals the two roundings to the half-width format are the identity and a
  product into a zero accumulator is the plain sum over the shared axis, so entry (n, f) of the block is the sum
  over k of input (n, k) times weight (k, f). The 10 row blocks tile the 100000 rows, so after the launch the whole
  result array is the matrix product of the two input arrays as the launch found them.
-/
import proofs.«128890_j16561393893563_1_alg».proof.Proof.Gen.KernelIdeal.Frame
import proofs.«128890_j16561393893563_1_alg».proof.Proof.LibPlainDot
import Idealize.ShloMosaic.Lib.Pipeline.Value
import Idealize.ShloMosaic.Lib.ValueIdx

set_option maxRecDepth 16384

noncomputable section

namespace Cert.KernelIdeal.Project8

open Idealize.ShloMosaic Idealize.ShloMosaic.TcCoe Idealize.SL.Sem Idealize.ShloMosaic.ValueIdx
open Cert.KernelIdeal Cert.KernelIdeal.Gen
open Idealize.ShloMosaic.Pipeline (Dat)

variable (V : (c : Dev nD) → (b : Ref sig .tc) → Buf (Elt Ideal) ((c : Thread nD τ).loc b))

/-- Every access of the body starts at the block's origin. -/
theorem origin : (![0, 0] : Fin 2 → Nat) = fun _ => 0 := funext fun a => by fin_cases a <;> rfl

/-- The launch's result as one function of its two input arrays: the matrix product, entry by entry. -/
abbrev product (x : S100000x30.Idx → EReal) (w : S30x8.Idx → EReal) : S100000x8.Idx → EReal :=
  fun i => ∑ k : Fin 30, x (ix2 (⟨(i 0).val, (i 0).isLt⟩ : Fin 100000) k) * w (ix2 k (⟨(i 1).val, (i 1).isLt⟩ : Fin 8))

/-- The two input arrays as the launch finds them, named at their own shapes (sums and products are taken of
    their entries). -/
abbrev hidden (c : Dev nD) : S100000x30.Idx → EReal := V c main_v45
abbrev weights (c : Dev nD) : S30x8.Idx → EReal := V c main_arg5

/-- The block's dimension numbers are those of a plain row-by-column product. -/
theorem plain : PlainDot.IsPlain (R := 10000) (K := 30) (C := 8) dot_S10000x30_S30x8_S10000x8_1_0_0_1_n_n :=
  ⟨rfl, rfl, rfl, rfl, rfl, rfl⟩

/-- What the body stores, read at entry (p, q) of the block: the sum over k of loaded input (p, k) times loaded
    weight (k, q). -/
theorem stored_at (x0 : Vec Ideal S10000x30 .f32) (x1 : Vec Ideal S30x8 .f32) (p : Fin 10000) (q : Fin 8) :
    k3_pay1 x0 x1 (ix2 p q) = ∑ k : Fin 30, x0 (ix2 p k) * x1 (ix2 k q) := by
  unfold k3_pay1
  rw [shapeCast_self]
  exact PlainDot.matmul_zero_apply plain none _ _ p q

/-- The printed index maps over the 10 points: the input and result windows sit on row block t, the weight
    window on its one block. -/
theorem blocks_at : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of the product array. -/
theorem flushed_eq (c : Dev nD) (t : Fin cfg3.N) :
    (dat3 V c).flushed 2 t = ((cfg3.win 2).blk t).view.read (Elt Ideal) (product (hidden V c) (weights V c)) := by
  show (cfg3.win 2).cut (grid3.coords t) ((dat3 V c).after 2 t) = _
  rw [after3_2]
  unfold out3_2
  rw [View.canon_unit_zero origin]
  simp only [View.ld_unit_zero (S := S10000x30) origin, View.ld_unit_zero (S := S30x8) origin]
  obtain ⟨e0, e1, e2, e3, e4, e5⟩ := blocks_at t
  funext j
  obtain ⟨p, q, rfl⟩ : ∃ (p : Fin 10000) (q : Fin 8), j = ix2 p q := ⟨j 0, j 1, eq_ix2 j⟩
  refine (stored_at _ _ p q).trans ?_
  show (∑ k : Fin 30, hidden V c (((cfg3.win 0).blk t).view.emb (ix2 p k)) * weights V c (((cfg3.win 1).blk t).view.emb (ix2 k q)))
      = product (hidden V c) (weights V c) (((cfg3.win 2).blk t).view.emb (ix2 p q))
  refine Finset.sum_congr rfl fun k _ => ?_
  have h0 : ((cfg3.win 0).blk t).view.emb (ix2 p k)
      = ix2 (⟨((((cfg3.win 2).blk t).view.emb (ix2 p q)) 0).val, ((((cfg3.win 2).blk t).view.emb (ix2 p q)) 0).isLt⟩ : Fin 100000) k := by
    funext a; apply Fin.ext
    match a with
    | ⟨0, _⟩ => show win3_0.index t (0 : Fin 2) * 10000 + 1 * p.val = win3_2.index t (0 : Fin 2) * 10000 + 1 * p.val; omega
    | ⟨1, _⟩ => show win3_0.index t (1 : Fin 2) * 30 + 1 * k.val = k.val; omega
  have h1 : ((cfg3.win 1).blk t).view.emb (ix2 k q)
      = ix2 k (⟨((((cfg3.win 2).blk t).view.emb (ix2 p q)) 1).val, ((((cfg3.win 2).blk t).view.emb (ix2 p q)) 1).isLt⟩ : Fin 8) := by
    funext a; apply Fin.ext
    match a with
    | ⟨0, _⟩ => show win3_1.index t (0 : Fin 2) * 30 + 1 * k.val = k.val; omega
    | ⟨1, _⟩ => show win3_1.index t (1 : Fin 2) * 8 + 1 * q.val = win3_2.index t (1 : Fin 2) * 8 + 1 * q.val; omega
  rw [h0, h1]

/-- An entry of the array lies in point t's block iff each coordinate lies in the block's range on its axis. -/
theorem mem_blk (t : Fin cfg3.N) (i : S100000x8.Idx) :
    i ∈ ((cfg3.win 2).blk t).view.set ↔ ∀ a : Fin 2, win3_2.index t a * S10000x8.size a ≤ (i a).val ∧ (i a).val < win3_2.index t a * S10000x8.size a + S10000x8.size a := by
  show i ∈ ((View.whole main_v46).slice (win3_2.rect t)).set ↔ _
  rw [View.set_slice_whole, Rect.mem_set_unit]
  exact Iff.rfl

/-- Every entry of the result array is written back by some point: row n by point n / 10000. -/
theorem covered (i : S100000x8.Idx) :
    ∃ t : Fin cfg3.N, (cfg3.win 2).flush t = true ∧ i ∈ ((cfg3.win 2).blk t).view.set := by
  have hi0 : (i 0).val < 100000 := (i 0).isLt
  have hi1 : (i 1).val < 8 := (i 1).isLt
  have ht : (i 0).val / 10000 < 10 := by omega
  refine ⟨⟨(i 0).val / 10000, ht⟩, flush3_2 _, ?_⟩
  rw [mem_blk]
  obtain ⟨e0, e1, e2, e3, e4, e5⟩ := blocks_at ⟨(i 0).val / 10000, ht⟩
  have e4' : win3_2.index ⟨(i 0).val / 10000, ht⟩ (0 : Fin 2) = (i 0).val / 10000 := e4
  intro a
  match a with
  | ⟨0, _⟩ => show win3_2.index ⟨(i 0).val / 10000, ht⟩ (0 : Fin 2) * 10000 ≤ (i 0).val ∧ (i 0).val < win3_2.index ⟨(i 0).val / 10000, ht⟩ (0 : Fin 2) * 10000 + 10000; omega
  | ⟨1, _⟩ => show win3_2.index ⟨(i 0).val / 10000, ht⟩ (1 : Fin 2) * 8 ≤ (i 1).val ∧ (i 1).val < win3_2.index ⟨(i 0).val / 10000, ht⟩ (1 : Fin 2) * 8 + 8; omega

/-- After the launch the result array is the matrix product of what the two input arrays held when it began. -/
theorem final (c : Dev nD) : (dat3 V c).arrAt 2 cfg3.N = product (hidden V c) (weights V c) :=
  (dat3 V c).arrAt_eq_of_cover 2 _ (fun t _ => flushed_eq V c t) covered

end Cert.KernelIdeal.Project8

end
-- ==== Proof.RegionStages.lean ====
/-
  Each launch's result, as one function of its input arrays, is the reference's stage. Where the kernel program
  lays the edge weights out as a column by a reshape and the bias as a row by a reshape, the reference spreads them
  by two broadcasts; read at an entry both give the weight of the entry's row, or the bias of its column, and the
  arithmetic on them is the same operation. For the two projections both sides are, on the extended reals, the
  plain sum over the shared axis.
-/
import proofs.«128890_j16561393893563_1_alg».proof.Proof.RefRead
import proofs.«128890_j16561393893563_1_alg».proof.Proof.EdgeScale30
import proofs.«128890_j16561393893563_1_alg».proof.Proof.EdgeScale8
import proofs.«128890_j16561393893563_1_alg».proof.Proof.BiasRelu30
import proofs.«128890_j16561393893563_1_alg».proof.Proof.Bias8
import proofs.«128890_j16561393893563_1_alg».proof.Proof.Project30
import proofs.«128890_j16561393893563_1_alg».proof.Proof.Project8

set_option maxRecDepth 16384

noncomputable section

namespace Cert.RegionStages

open Idealize.ShloMosaic Idealize.ShloMosaic.TcCoe Idealize.SL.Sem Idealize.ShloMosaic.ValueIdx
open Cert.KernelIdeal Cert.KernelIdeal.Gen
open Cert.ReferenceIdeal.ReadP

section AnyFamily

variable {F : FTy → Type} [FloatOps F]
variable (x0 : (⟨Cert.ReferenceIdeal.S100000x5, .f32⟩ : BufTy).Contents (Elt F))
  (x1 : (⟨Cert.ReferenceIdeal.S2x3200000, .i32⟩ : BufTy).Contents (Elt F))
  (x3 : (⟨Cert.ReferenceIdeal.S5x30, .f32⟩ : BufTy).Contents (Elt F))
  (x4 : (⟨Cert.ReferenceIdeal.S30, .f32⟩ : BufTy).Contents (Elt F))
  (x5 : (⟨Cert.ReferenceIdeal.S30x8, .f32⟩ : BufTy).Contents (Elt F))
  (x6 : (⟨Cert.ReferenceIdeal.S8, .f32⟩ : BufTy).Contents (Elt F))

/-- First layer: gathered features times the weight of their row. -/
theorem scaled30 :
    EdgeScale30.rowScaled (F := F) (val_main_v38 (F := F) x0 x1 x3)
        (shapeCast S3300000x1 (val_main_v31 (F := F) x1) shapeCasts_S3300000_S3300000x1)
      = val_main_v41 (F := F) x0 x1 x3 := by
  funext i
  rw [val_main_v41_apply, val_main_v40_apply, val_main_v39_apply]
  show FloatOps.mulf (val_main_v38 (F := F) x0 x1 x3 i)
      (shapeCast S3300000x1 (val_main_v31 (F := F) x1) shapeCasts_S3300000_S3300000x1 (EdgeScale30.weightOf i)) = _
  rw [shapeCast_apply (val_main_v31 (F := F) x1) shapeCasts_S3300000_S3300000x1 (EdgeScale30.weightOf i)
    (idx_main_v39 (idx_main_v40 i)) (by
      rw [Shape.rowMajor_val_one, Shape.rowMajor_val_two]; show (i 0).val = (i 0).val * 1 + 0; omega)]

/-- First layer: aggregated features plus the bias of their column, then the larger of that and zero. -/
theorem biased30 :
    BiasRelu30.biased (F := F) (val_main_v44 (F := F) x0 x1 x3) (shapeCast S1x30 x4 shapeCasts_S30_S1x30)
      = val_main_v48 (F := F) x0 x1 x3 x4 := by
  funext i
  rw [val_main_v48_apply, val_main_v47_apply, val_main_call1_v0_apply, val_main_call1_cst_apply, val_main_v46_apply,
    val_main_v45_apply]
  show FloatOps.maximumf (FloatOps.addf (val_main_v44 (F := F) x0 x1 x3 i)
      (shapeCast S1x30 x4 shapeCasts_S30_S1x30 (BiasRelu30.biasOf i))) (Scalar.ofBits .f32 0x00000000#32) = _
  rw [shapeCast_apply x4 shapeCasts_S30_S1x30 (BiasRelu30.biasOf i) (idx_main_v45 (idx_main_v46 i)) (by
      rw [Shape.rowMajor_val_one, Shape.rowMajor_val_two]; show (i 1).val = 0 * 30 + (i 1).val; omega)]

/-- Second layer: gathered features times the weight of their row. -/
theorem scaled8 :
    EdgeScale8.rowScaled (F := F) (val_main_v80 (F := F) x0 x1 x3 x4 x5)
        (shapeCast S3300000x1 (val_main_v73 (F := F) x1) shapeCasts_S3300000_S3300000x1)
      = val_main_v83 (F := F) x0 x1 x3 x4 x5 := by
  funext i
  rw [val_main_v83_apply, val_main_v82_apply, val_main_v81_apply]
  show FloatOps.mulf (val_main_v80 (F := F) x0 x1 x3 x4 x5 i)
      (shapeCast S3300000x1 (val_main_v73 (F := F) x1) shapeCasts_S3300000_S3300000x1 (EdgeScale8.weightOf i)) = _
  rw [shapeCast_apply (val_main_v73 (F := F) x1) shapeCasts_S3300000_S3300000x1 (EdgeScale8.weightOf i)
    (idx_main_v81 (idx_main_v82 i)) (by
      rw [Shape.rowMajor_val_one, Shape.rowMajor_val_two]; show (i 0).val = (i 0).val * 1 + 0; omega)]

/-- Second layer: aggregated features plus the bias of their column. -/
theorem biased8 :
    Bias8.biased (F := F) (val_main_v86 (F := F) x0 x1 x3 x4 x5) (shapeCast S1x8 x6 shapeCasts_S8_S1x8)
      = val_main_v89 (F := F) x0 x1 x3 x4 x5 x6 := by
  funext i
  rw [val_main_v89_apply, val_main_v88_apply, val_main_v87_apply]
  show FloatOps.addf (val_main_v86 (F := F) x0 x1 x3 x4 x5 i) (shapeCast S1x8 x6 shapeCasts_S8_S1x8 (Bias8.biasOf i)) = _
  rw [shapeCast_apply x6 shapeCasts_S8_S1x8 (Bias8.biasOf i) (idx_main_v87 (idx_main_v88 i)) (by
      rw [Shape.rowMajor_val_one, Shape.rowMajor_val_two]; show (i 1).val = 0 * 8 + (i 1).val; omega)]

end AnyFamily

section ExtendedReals

/-- First projection: the launch's product and the host's are one function of the two arrays. -/
theorem product30 (x : (⟨Cert.ReferenceIdeal.S100000x5, .f32⟩ : BufTy).Contents (Elt Ideal))
    (w : (⟨Cert.ReferenceIdeal.S5x30, .f32⟩ : BufTy).Contents (Elt Ideal)) :
    Project30.product x w = val_main_v7 x w := by
  funext i
  rw [val_main_v7_apply]
  refine Finset.sum_congr rfl fun k _ => ?_
  have hl : ix2 (⟨(i 0).val, (i 0).isLt⟩ : Fin 100000) k = lidx_main_v7 i k :=
    funext fun a => by match a with | ⟨0, _⟩ => rfl | ⟨1, _⟩ => rfl
  have hr : ix2 k (⟨(i 1).val, (i 1).isLt⟩ : Fin 30) = ridx_main_v7 i k :=
    funext fun a => by match a with | ⟨0, _⟩ => rfl | ⟨1, _⟩ => rfl
  show x (ix2 (⟨(i 0).val, (i 0).isLt⟩ : Fin 100000) k) * w (ix2 k (⟨(i 1).val, (i 1).isLt⟩ : Fin 30))
      = x (lidx_main_v7 i k) * w (ridx_main_v7 i k)
  rw [hl, hr]

/-- Second projection: the same, of the first layer's output and the second weight matrix. -/
theorem product8 (x0 : (⟨Cert.ReferenceIdeal.S100000x5, .f32⟩ : BufTy).Contents (Elt Ideal))
    (x1 : (⟨Cert.ReferenceIdeal.S2x3200000, .i32⟩ : BufTy).Contents (Elt Ideal))
    (x3 : (⟨Cert.ReferenceIdeal.S5x30, .f32⟩ : BufTy).Contents (Elt Ideal))
    (x4 : (⟨Cert.ReferenceIdeal.S30, .f32⟩ : BufTy).Contents (Elt Ideal))
    (x5 : (⟨Cert.ReferenceIdeal.S30x8, .f32⟩ : BufTy).Contents (Elt Ideal)) :
    Project8.product (val_main_v48 (F := Ideal) x0 x1 x3 x4) x5 = val_main_v49 (F := Ideal) x0 x1 x3 x4 x5 := by
  funext i
  rw [val_main_v49_apply]
  refine Finset.sum_congr rfl fun k _ => ?_
  have hl : ix2 (⟨(i 0).val, (i 0).isLt⟩ : Fin 100000) k = lidx_main_v49 i k :=
    funext fun a => by match a with | ⟨0, _⟩ => rfl | ⟨1, _⟩ => rfl
  have hr : ix2 k (⟨(i 1).val, (i 1).isLt⟩ : Fin 8) = ridx_main_v49 i k :=
    funext fun a => by match a with | ⟨0, _⟩ => rfl | ⟨1, _⟩ => rfl
  show (val_main_v48 (F := Ideal) x0 x1 x3 x4) (ix2 (⟨(i 0).val, (i 0).isLt⟩ : Fin 100000) k) * x5 (ix2 k (⟨(i 1).val, (i 1).isLt⟩ : Fin 8))
      = (val_main_v48 (F := Ideal) x0 x1 x3 x4) (lidx_main_v49 i k) * x5 (ridx_main_v49 i k)
  rw [hl, hr]

end ExtendedReals

end Cert.RegionStages

end
-- ==== Proof.Ladder.lean ====
/-
  The kernel program's run, boundary by boundary, on the extended reals: at the end of every stretch of host
  operations and of every launch, each buffer that is read later holds the reference's stage for it. The rungs go
  in program order. A stretch of host operations is crossed by the lemma for that stretch, fed with the rungs
  before it; a launch is crossed by what the launch leaves in its result array (the function of its two input
  arrays) and by the fact that it writes nothing else. The last rung is the result array of the whole program: the
  reference's last stage of the seven argument arrays.
-/
import proofs.«128890_j16561393893563_1_alg».proof.Proof.Gen.KernelIdeal.Frame
import proofs.«128890_j16561393893563_1_alg».proof.Proof.HostStages
import proofs.«128890_j16561393893563_1_alg».proof.Proof.RegionStages

set_option maxRecDepth 16384

noncomputable section

namespace Cert.Ladder

open Idealize.ShloMosaic Idealize.ShloMosaic.TcCoe Idealize.SL.Sem Idealize.ShloMosaic.StableHlo
open Cert.KernelIdeal Cert.KernelIdeal.Gen
open Cert.ReferenceIdeal.ReadP
open Cert.HostStages Cert.RegionStages

variable (m : (ℓ : Loc nD τ sig) → Buf (Elt Ideal) ℓ) (ρ : Dev nD → PrngReg) (c : Dev nD)

/-- The seven argument arrays as launched, named at the shapes both programs give them. -/
abbrev x0 : (⟨Cert.ReferenceIdeal.S100000x5, .f32⟩ : BufTy).Contents (Elt Ideal) := m ((c.tc : Thread nD τ).loc main_arg0)
abbrev x1 : (⟨Cert.ReferenceIdeal.S2x3200000, .i32⟩ : BufTy).Contents (Elt Ideal) := m ((c.tc : Thread nD τ).loc main_arg1)
abbrev x2 : (⟨Cert.ReferenceIdeal.S100000, .i32⟩ : BufTy).Contents (Elt Ideal) := m ((c.tc : Thread nD τ).loc main_arg2)
abbrev x3 : (⟨Cert.ReferenceIdeal.S5x30, .f32⟩ : BufTy).Contents (Elt Ideal) := m ((c.tc : Thread nD τ).loc main_arg3)
abbrev x4 : (⟨Cert.ReferenceIdeal.S30, .f32⟩ : BufTy).Contents (Elt Ideal) := m ((c.tc : Thread nD τ).loc main_arg4)
abbrev x5 : (⟨Cert.ReferenceIdeal.S30x8, .f32⟩ : BufTy).Contents (Elt Ideal) := m ((c.tc : Thread nD τ).loc main_arg5)
abbrev x6 : (⟨Cert.ReferenceIdeal.S8, .f32⟩ : BufTy).Contents (Elt Ideal) := m ((c.tc : Thread nD τ).loc main_arg6)

/-! ## At the first projection's entry (after the first host operations) -/

theorem at2_arg0 : W2 m ρ c (Proc.devRef .tc main_arg0) = x0 m c := keep0_arg0 (W0 m ρ c)
theorem at2_arg2 : W2 m ρ c (Proc.devRef .tc main_arg2) = x2 m c := keep0_arg2 (W0 m ρ c)
theorem at2_arg3 : W2 m ρ c (Proc.devRef .tc main_arg3) = x3 m c := keep0_arg3 (W0 m ρ c)
theorem at2_arg4 : W2 m ρ c (Proc.devRef .tc main_arg4) = x4 m c := keep0_arg4 (W0 m ρ c)
theorem at2_arg5 : W2 m ρ c (Proc.devRef .tc main_arg5) = x5 m c := keep0_arg5 (W0 m ρ c)
theorem at2_arg6 : W2 m ρ c (Proc.devRef .tc main_arg6) = x6 m c := keep0_arg6 (W0 m ρ c)
theorem at2_v3 : W2 m ρ c (Proc.devRef .tc main_v3) = val_main_v3 (F := Ideal) (x1 m c) := sources (W0 m ρ c) (x1 m c) rfl
theorem at2_v6 : W2 m ρ c (Proc.devRef .tc main_v6) = val_main_v6 (F := Ideal) (x1 m c) := destinations (W0 m ρ c) (x1 m c) rfl
theorem at2_v15 : W2 m ρ c (Proc.devRef .tc main_v15) = val_main_v16 (F := Ideal) (x1 m c) := invSqrtDeg (W0 m ρ c) (x1 m c) rfl

/-! ## At the first projection's exit -/

theorem at3_v16 : W3 m ρ c (Proc.devRef .tc main_v16) = val_main_v7 (F := Ideal) (x0 m c) (x3 m c) := by
  refine (W3_arr m ρ c 2).trans ((Project30.final (V2 m ρ) c).trans ?_)
  show Project30.product (W2 m ρ c (Proc.devRef .tc main_arg0)) (W2 m ρ c (Proc.devRef .tc main_arg3)) = _
  rw [at2_arg0, at2_arg3]
  exact product30 _ _
theorem at3_arg2 : W3 m ρ c (Proc.devRef .tc main_arg2) = x2 m c := (W3_of_ne m ρ c main_arg2 (by decide)).trans (at2_arg2 m ρ c)
theorem at3_arg4 : W3 m ρ c (Proc.devRef .tc main_arg4) = x4 m c := (W3_of_ne m ρ c main_arg4 (by decide)).trans (at2_arg4 m ρ c)
theorem at3_arg5 : W3 m ρ c (Proc.devRef .tc main_arg5) = x5 m c := (W3_of_ne m ρ c main_arg5 (by decide)).trans (at2_arg5 m ρ c)
theorem at3_arg6 : W3 m ρ c (Proc.devRef .tc main_arg6) = x6 m c := (W3_of_ne m ρ c main_arg6 (by decide)).trans (at2_arg6 m ρ c)
theorem at3_v3 : W3 m ρ c (Proc.devRef .tc main_v3) = val_main_v3 (F := Ideal) (x1 m c) := (W3_of_ne m ρ c main_v3 (by decide)).trans (at2_v3 m ρ c)
theorem at3_v6 : W3 m ρ c (Proc.devRef .tc main_v6) = val_main_v6 (F := Ideal) (x1 m c) := (W3_of_ne m ρ c main_v6 (by decide)).trans (at2_v6 m ρ c)
theorem at3_v15 : W3 m ρ c (Proc.devRef .tc main_v15) = val_main_v16 (F := Ideal) (x1 m c) := (W3_of_ne m ρ c main_v15 (by decide)).trans (at2_v15 m ρ c)

/-! ## At the first edge scaling's entry -/

theorem at4_v39 : W4 m ρ c (Proc.devRef .tc main_v39) = val_main_v38 (F := Ideal) (x0 m c) (x1 m c) (x3 m c) :=
  gathered30 (W3 m ρ c) _ _ _ (at3_v16 m ρ c) (at3_v3 m ρ c)
theorem at4_v32 : W4 m ρ c (Proc.devRef .tc main_v32) = shapeCast S3300000x1 (val_main_v31 (F := Ideal) (x1 m c)) shapeCasts_S3300000_S3300000x1 :=
  weights30 (W3 m ρ c) _ (at3_v15 m ρ c) (at3_v3 m ρ c) (at3_v6 m ρ c)
theorem at4_arg2 : W4 m ρ c (Proc.devRef .tc main_arg2) = x2 m c := (keep1_arg2 (W3 m ρ c)).trans (at3_arg2 m ρ c)
theorem at4_arg4 : W4 m ρ c (Proc.devRef .tc main_arg4) = x4 m c := (keep1_arg4 (W3 m ρ c)).trans (at3_arg4 m ρ c)
theorem at4_arg5 : W4 m ρ c (Proc.devRef .tc main_arg5) = x5 m c := (keep1_arg5 (W3 m ρ c)).trans (at3_arg5 m ρ c)
theorem at4_arg6 : W4 m ρ c (Proc.devRef .tc main_arg6) = x6 m c := (keep1_arg6 (W3 m ρ c)).trans (at3_arg6 m ρ c)
theorem at4_v3 : W4 m ρ c (Proc.devRef .tc main_v3) = val_main_v3 (F := Ideal) (x1 m c) := (keep1_v3 (W3 m ρ c)).trans (at3_v3 m ρ c)
theorem at4_v6 : W4 m ρ c (Proc.devRef .tc main_v6) = val_main_v6 (F := Ideal) (x1 m c) := (keep1_v6 (W3 m ρ c)).trans (at3_v6 m ρ c)
theorem at4_v15 : W4 m ρ c (Proc.devRef .tc main_v15) = val_main_v16 (F := Ideal) (x1 m c) := (keep1_v15 (W3 m ρ c)).trans (at3_v15 m ρ c)

/-! ## At the first edge scaling's exit -/

theorem at5_v40 : W5 m ρ c (Proc.devRef .tc main_v40) = val_main_v41 (F := Ideal) (x0 m c) (x1 m c) (x3 m c) := by
  refine (W5_arr m ρ c 2).trans ((EdgeScale30.final (V4 m ρ) c).trans ?_)
  show EdgeScale30.rowScaled (W4 m ρ c (Proc.devRef .tc main_v39)) (W4 m ρ c (Proc.devRef .tc main_v32)) = _
  rw [at4_v39, at4_v32]
  exact scaled30 _ _ _
theorem at5_arg2 : W5 m ρ c (Proc.devRef .tc main_arg2) = x2 m c := (W5_of_ne m ρ c main_arg2 (by decide)).trans (at4_arg2 m ρ c)
theorem at5_arg4 : W5 m ρ c (Proc.devRef .tc main_arg4) = x4 m c := (W5_of_ne m ρ c main_arg4 (by decide)).trans (at4_arg4 m ρ c)
theorem at5_arg5 : W5 m ρ c (Proc.devRef .tc main_arg5) = x5 m c := (W5_of_ne m ρ c main_arg5 (by decide)).trans (at4_arg5 m ρ c)
theorem at5_arg6 : W5 m ρ c (Proc.devRef .tc main_arg6) = x6 m c := (W5_of_ne m ρ c main_arg6 (by decide)).trans (at4_arg6 m ρ c)
theorem at5_v3 : W5 m ρ c (Proc.devRef .tc main_v3) = val_main_v3 (F := Ideal) (x1 m c) := (W5_of_ne m ρ c main_v3 (by decide)).trans (at4_v3 m ρ c)
theorem at5_v6 : W5 m ρ c (Proc.devRef .tc main_v6) = val_main_v6 (F := Ideal) (x1 m c) := (W5_of_ne m ρ c main_v6 (by decide)).trans (at4_v6 m ρ c)
theorem at5_v15 : W5 m ρ c (Proc.devRef .tc main_v15) = val_main_v16 (F := Ideal) (x1 m c) := (W5_of_ne m ρ c main_v15 (by decide)).trans (at4_v15 m ρ c)

/-! ## At the first bias's entry -/

theorem at6_v43 : W6 m ρ c (Proc.devRef .tc main_v43) = val_main_v44 (F := Ideal) (x0 m c) (x1 m c) (x3 m c) :=
  aggregated30 (W5 m ρ c) _ _ _ (at5_v40 m ρ c) (at5_v6 m ρ c)
theorem at6_v44 : W6 m ρ c (Proc.devRef .tc main_v44) = shapeCast S1x30 (x4 m c) shapeCasts_S30_S1x30 :=
  biasRow30 (W5 m ρ c) _ (at5_arg4 m ρ c)
theorem at6_arg2 : W6 m ρ c (Proc.devRef .tc main_arg2) = x2 m c := (keep2_arg2 (W5 m ρ c)).trans (at5_arg2 m ρ c)
theorem at6_arg5 : W6 m ρ c (Proc.devRef .tc main_arg5) = x5 m c := (keep2_arg5 (W5 m ρ c)).trans (at5_arg5 m ρ c)
theorem at6_arg6 : W6 m ρ c (Proc.devRef .tc main_arg6) = x6 m c := (keep2_arg6 (W5 m ρ c)).trans (at5_arg6 m ρ c)
theorem at6_v3 : W6 m ρ c (Proc.devRef .tc main_v3) = val_main_v3 (F := Ideal) (x1 m c) := (keep2_v3 (W5 m ρ c)).trans (at5_v3 m ρ c)
theorem at6_v6 : W6 m ρ c (Proc.devRef .tc main_v6) = val_main_v6 (F := Ideal) (x1 m c) := (keep2_v6 (W5 m ρ c)).trans (at5_v6 m ρ c)
theorem at6_v15 : W6 m ρ c (Proc.devRef .tc main_v15) = val_main_v16 (F := Ideal) (x1 m c) := (keep2_v15 (W5 m ρ c)).trans (at5_v15 m ρ c)

/-! ## At the first bias's exit, which is the second projection's entry -/

theorem at7_v45 : W7 m ρ c (Proc.devRef .tc main_v45) = val_main_v48 (F := Ideal) (x0 m c) (x1 m c) (x3 m c) (x4 m c) := by
  refine (W7_arr m ρ c 2).trans ((BiasRelu30.final (V6 m ρ) c).trans ?_)
  show BiasRelu30.biased (W6 m ρ c (Proc.devRef .tc main_v43)) (W6 m ρ c (Proc.devRef .tc main_v44)) = _
  rw [at6_v43, at6_v44]
  exact biased30 _ _ _ _
theorem at7_arg2 : W7 m ρ c (Proc.devRef .tc main_arg2) = x2 m c := (W7_of_ne m ρ c main_arg2 (by decide)).trans (at6_arg2 m ρ c)
theorem at7_arg5 : W7 m ρ c (Proc.devRef .tc main_arg5) = x5 m c := (W7_of_ne m ρ c main_arg5 (by decide)).trans (at6_arg5 m ρ c)
theorem at7_arg6 : W7 m ρ c (Proc.devRef .tc main_arg6) = x6 m c := (W7_of_ne m ρ c main_arg6 (by decide)).trans (at6_arg6 m ρ c)
theorem at7_v3 : W7 m ρ c (Proc.devRef .tc main_v3) = val_main_v3 (F := Ideal) (x1 m c) := (W7_of_ne m ρ c main_v3 (by decide)).trans (at6_v3 m ρ c)
theorem at7_v6 : W7 m ρ c (Proc.devRef .tc main_v6) = val_main_v6 (F := Ideal) (x1 m c) := (W7_of_ne m ρ c main_v6 (by decide)).trans (at6_v6 m ρ c)
theorem at7_v15 : W7 m ρ c (Proc.devRef .tc main_v15) = val_main_v16 (F := Ideal) (x1 m c) := (W7_of_ne m ρ c main_v15 (by decide)).trans (at6_v15 m ρ c)

/-! ## At the second projection's exit -/

theorem at8_v46 : W8 m ρ c (Proc.devRef .tc main_v46) = val_main_v49 (F := Ideal) (x0 m c) (x1 m c) (x3 m c) (x4 m c) (x5 m c) := by
  refine (W8_arr m ρ c 2).trans ((Project8.final (V7 m ρ) c).trans ?_)
  show Project8.product (W7 m ρ c (Proc.devRef .tc main_v45)) (W7 m ρ c (Proc.devRef .tc main_arg5)) = _
  rw [at7_v45, at7_arg5]
  exact product8 _ _ _ _ _
theorem at8_arg2 : W8 m ρ c (Proc.devRef .tc main_arg2) = x2 m c := (W8_of_ne m ρ c main_arg2 (by decide)).trans (at7_arg2 m ρ c)
theorem at8_arg6 : W8 m ρ c (Proc.devRef .tc main_arg6) = x6 m c := (W8_of_ne m ρ c main_arg6 (by decide)).trans (at7_arg6 m ρ c)
theorem at8_v3 : W8 m ρ c (Proc.devRef .tc main_v3) = val_main_v3 (F := Ideal) (x1 m c) := (W8_of_ne m ρ c main_v3 (by decide)).trans (at7_v3 m ρ c)
theorem at8_v6 : W8 m ρ c (Proc.devRef .tc main_v6) = val_main_v6 (F := Ideal) (x1 m c) := (W8_of_ne m ρ c main_v6 (by decide)).trans (at7_v6 m ρ c)
theorem at8_v15 : W8 m ρ c (Proc.devRef .tc main_v15) = val_main_v16 (F := Ideal) (x1 m c) := (W8_of_ne m ρ c main_v15 (by decide)).trans (at7_v15 m ρ c)

/-! ## At the second edge scaling's entry -/

theorem at9_v69 : W9 m ρ c (Proc.devRef .tc main_v69) = val_main_v80 (F := Ideal) (x0 m c) (x1 m c) (x3 m c) (x4 m c) (x5 m c) :=
  gathered8 (W8 m ρ c) _ _ _ _ _ (at8_v46 m ρ c) (at8_v3 m ρ c)
theorem at9_v62 : W9 m ρ c (Proc.devRef .tc main_v62) = shapeCast S3300000x1 (val_main_v73 (F := Ideal) (x1 m c)) shapeCasts_S3300000_S3300000x1 :=
  weights8 (W8 m ρ c) _ (at8_v15 m ρ c) (at8_v3 m ρ c) (at8_v6 m ρ c)
theorem at9_arg2 : W9 m ρ c (Proc.devRef .tc main_arg2) = x2 m c := (keep4_arg2 (W8 m ρ c)).trans (at8_arg2 m ρ c)
theorem at9_arg6 : W9 m ρ c (Proc.devRef .tc main_arg6) = x6 m c := (keep4_arg6 (W8 m ρ c)).trans (at8_arg6 m ρ c)
theorem at9_v6 : W9 m ρ c (Proc.devRef .tc main_v6) = val_main_v6 (F := Ideal) (x1 m c) := (keep4_v6 (W8 m ρ c)).trans (at8_v6 m ρ c)

/-! ## At the second edge scaling's exit -/

theorem at10_v70 : W10 m ρ c (Proc.devRef .tc main_v70) = val_main_v83 (F := Ideal) (x0 m c) (x1 m c) (x3 m c) (x4 m c) (x5 m c) := by
  refine (W10_arr m ρ c 2).trans ((EdgeScale8.final (V9 m ρ) c).trans ?_)
  show EdgeScale8.rowScaled (W9 m ρ c (Proc.devRef .tc main_v69)) (W9 m ρ c (Proc.devRef .tc main_v62)) = _
  rw [at9_v69, at9_v62]
  exact scaled8 _ _ _ _ _
theorem at10_arg2 : W10 m ρ c (Proc.devRef .tc main_arg2) = x2 m c := (W10_of_ne m ρ c main_arg2 (by decide)).trans (at9_arg2 m ρ c)
theorem at10_arg6 : W10 m ρ c (Proc.devRef .tc main_arg6) = x6 m c := (W10_of_ne m ρ c main_arg6 (by decide)).trans (at9_arg6 m ρ c)
theorem at10_v6 : W10 m ρ c (Proc.devRef .tc main_v6) = val_main_v6 (F := Ideal) (x1 m c) := (W10_of_ne m ρ c main_v6 (by decide)).trans (at9_v6 m ρ c)

/-! ## At the second bias's entry -/

theorem at11_v73 : W11 m ρ c (Proc.devRef .tc main_v73) = val_main_v86 (F := Ideal) (x0 m c) (x1 m c) (x3 m c) (x4 m c) (x5 m c) :=
  aggregated8 (W10 m ρ c) _ _ _ _ _ (at10_v70 m ρ c) (at10_v6 m ρ c)
theorem at11_v74 : W11 m ρ c (Proc.devRef .tc main_v74) = shapeCast S1x8 (x6 m c) shapeCasts_S8_S1x8 :=
  biasRow8 (W10 m ρ c) _ (at10_arg6 m ρ c)
theorem at11_arg2 : W11 m ρ c (Proc.devRef .tc main_arg2) = x2 m c := (keep5_arg2 (W10 m ρ c)).trans (at10_arg2 m ρ c)

/-! ## At the second bias's exit -/

theorem at12_v75 : W12 m ρ c (Proc.devRef .tc main_v75) = val_main_v89 (F := Ideal) (x0 m c) (x1 m c) (x3 m c) (x4 m c) (x5 m c) (x6 m c) := by
  refine (W12_arr m ρ c 2).trans ((Bias8.final (V11 m ρ) c).trans ?_)
  show Bias8.biased (W11 m ρ c (Proc.devRef .tc main_v73)) (W11 m ρ c (Proc.devRef .tc main_v74)) = _
  rw [at11_v73, at11_v74]
  exact biased8 _ _ _ _ _ _
theorem at12_arg2 : W12 m ρ c (Proc.devRef .tc main_arg2) = x2 m c := (W12_of_ne m ρ c main_arg2 (by decide)).trans (at11_arg2 m ρ c)

/-! ## At the return -/

/-- The result array of the kernel program is the reference's last stage of the seven argument arrays. -/
theorem result : W13 m ρ c (Proc.devRef .tc main_v87)
    = val_main_v101 (F := Ideal) (x0 m c) (x1 m c) (x2 m c) (x3 m c) (x4 m c) (x5 m c) (x6 m c) :=
  pooled (W12 m ρ c) _ _ _ _ _ _ _ (at12_v75 m ρ c) (at12_arg2 m ρ c)

end Cert.Ladder

end
-- ==== Proof.lean ====
/-
  A two-layer graph convolution with mean pooling over graph ids, as a Pallas program of six launches among host
  operations, against the plain jnp program.

  Both programs append a self loop 0 … 99999 to the two rows of the edge list, add ones up at the destinations to
  get the degrees, and take deg^(-1/2) where the degree is positive and zero elsewhere. A layer then projects the
  node features by a weight matrix, gathers the projected rows at the sources, multiplies row e by the product of
  the two inverse square roots at its source and its destination, adds the rows up at the destinations and adds a
  bias (the first layer then takes the larger of that and zero). At the end the rows are added up per graph id and
  divided by the larger of the graph's node count and one.

  The kernel program runs three of those steps of each layer as launches over row blocks of 10000: the projection
  (operands first rounded to the half-width format, a product into a zero accumulator), the row scaling, and the
  bias. Every launch's row blocks tile its result array, and each block is the same function of the input arrays'
  rows, so each launch leaves its result array at one function of its two input arrays. On the extended reals a
  change of float format is the identity and a product into zeros is the plain sum over the shared axis, so the
  projections are the host's matrix products; the scaling and the bias read a column, or a row, laid out by a
  reshape where the reference spreads it by two broadcasts, and both give the weight of the entry's row, or the
  bias of its column. Everything else the two programs do by the same host operations on the same values. No step
  uses distributivity, cancelling or any other law that fails at the infinities, so the precondition is never
  opened.

  The three frames: the kernel program's two are the generated frame certificates; the reference has no launch,
  and its frame is its run with the result dropped. The idealizing pass rewrote nothing, so there is nothing to
  preserve beyond the text itself.
-/
import proofs.«128890_j16561393893563_1_alg».proof.Defs
import proofs.«128890_j16561393893563_1_alg».proof.Proof.Gen.Kernel
import proofs.«128890_j16561393893563_1_alg».proof.Proof.Gen.Kernel.Skeleton
import proofs.«128890_j16561393893563_1_alg».proof.Proof.Gen.Kernel.Launch
import proofs.«128890_j16561393893563_1_alg».proof.Proof.Gen.Kernel.Points
import proofs.«128890_j16561393893563_1_alg».proof.Proof.Gen.Kernel.Frame
import proofs.«128890_j16561393893563_1_alg».proof.Proof.Gen.KernelIdeal
import proofs.«128890_j16561393893563_1_alg».proof.Proof.Gen.KernelIdeal.Skeleton
import proofs.«128890_j16561393893563_1_alg».proof.Proof.Gen.KernelIdeal.Launch
import proofs.«128890_j16561393893563_1_alg».proof.Proof.Gen.KernelIdeal.Points
import proofs.«128890_j16561393893563_1_alg».proof.Proof.Gen.KernelIdeal.Frame
import proofs.«128890_j16561393893563_1_alg».proof.Proof.Gen.ReferenceIdeal
import proofs.«128890_j16561393893563_1_alg».proof.Proof.Gen.Pre_finite_inputs
import proofs.«128890_j16561393893563_1_alg».proof.Proof.NamedRun
import proofs.«128890_j16561393893563_1_alg».proof.Proof.RefRun
import proofs.«128890_j16561393893563_1_alg».proof.Proof.RefRead
import proofs.«128890_j16561393893563_1_alg».proof.Proof.Ladder
import Idealize.ShloMosaic.Adequacy
import Idealize.ShloMosaic.Init

noncomputable section

namespace Cert.Proof

open Idealize.ShloMosaic Idealize.SL.Sem

/-- The kernel program as printed runs, and its argument arrays end as launched. -/
theorem frame_kernel : Cert.frame_Kernel := fun m ρ _ => Cert.Kernel.Gen.frame m ρ

/-- The same of the kernel program read on the extended reals. -/
theorem frame_kernelIdeal : Cert.frame_KernelIdeal := fun m ρ _ => Cert.KernelIdeal.Gen.frame m ρ

/-- The reference runs, and its argument arrays end as launched: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealizing pass rewrote no operation. -/
theorem preserves : Cert.preserves_Kernel_KernelIdeal := trivial

/-- From memories that agree on the seven argument arrays both programs end with their result arrays at the
    reference's last stage of those arrays: the kernel program by the ladder of its boundaries, the reference by
    its run read stage by stage. -/
theorem algebraic : Cert.algebraic_KernelIdeal_ReferenceIdeal := by
  intro m ρ m' ρ' _ hagree
  refine ⟨fun c => Cert.ReferenceIdeal.ReadP.val_main_v101 (F := Ideal) (Cert.Ladder.x0 m c) (Cert.Ladder.x1 m c)
    (Cert.Ladder.x2 m c) (Cert.Ladder.x3 m c) (Cert.Ladder.x4 m c) (Cert.Ladder.x5 m c) (Cert.Ladder.x6 m c), ?_, ?_⟩
  · exact (θ_run Cert.KernelIdeal.defs _ _).mono
      (fun r h c => ⟨(h c).1.trans (Cert.Ladder.result m ρ c), (h c).2⟩)
      (Cert.KernelIdeal.GenP.run_named (F := Ideal) m ρ)
  · refine (θ_run Cert.ReferenceIdeal.defs _ _).mono
      (fun r h c => ⟨(h c).1.trans ((Cert.ReferenceIdeal.ReadP.val_main_v101_eq m' c).trans ?_), (h c).2⟩)
      (Cert.ReferenceIdeal.ValueP.run (F := Ideal) m' ρ')
    obtain ⟨a0, a1, a2, a3, a4, a5, a6⟩ := hagree c
    rw [a0, a1, a2, a3, a4, a5, a6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
